-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256 : Shape := ⟨3, ![2, 256, 256]⟩
abbrev S1024x65536 : Shape := ⟨2, ![1024, 65536]⟩
abbrev S4096x65536 : Shape := ⟨2, ![4096, 65536]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S4096x65536 : S_.BroadcastsInDim S4096x65536 (![] : Fin 0 → Fin S4096x65536.rank)
  reducesTo_S4096x65536_S_d0_1 : S4096x65536.ReducesTo [0, 1] S_

variable [Facts]

def fn {F : FTy → Type} [FloatOps F] (main_arg0 : FVec F S2x256x256 .f32) (main_arg1 : FVec F S1024x65536 .f32) (main_arg2 : FVec F S4096x65536 .f32) : IVec S_ 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_c : IVec S_ 1 := constantI S_ 1 1#1
  let main_v3 : IVec S_ 1 := (fun x v => Host.reduce IntOp.andi x v reducesTo_S2x256x256_S_d0_1_2 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_v9 : FVec F S4096x65536 .f32 := Host.absf main_arg2
  let main_cst_2 : FVec F S_ .f32 := constant S_ .f32 0x7F800000#32
  let main_v10 : FVec F S4096x65536 .f32 := broadcastInDim S4096x65536 ![] bcast_S_S4096x65536 main_cst_2
  let main_v11 : IVec S4096x65536 1 := cmpf .olt main_v9 main_v10
  let main_c_3 : IVec S_ 1 := constantI S_ 1 1#1
  let main_v12 : IVec S_ 1 := (fun x v => Host.reduce IntOp.andi x v reducesTo_S4096x65536_S_d0_1 h_S_) main_v11 main_c_3
  let main_v13 : IVec S_ 1 := andi main_v8 main_v12
  main_v13
-- ==== Kernel.lean ====
abbrev S2x256x256 : Shape := ⟨3, ![2, 256, 256]⟩
abbrev S1024x65536 : Shape := ⟨2, ![1024, 65536]⟩
abbrev S4096x65536 : Shape := ⟨2, ![4096, 65536]⟩
abbrev S2x65536 : Shape := ⟨2, ![2, 65536]⟩
abbrev S2x1024 : Shape := ⟨2, ![2, 1024]⟩
abbrev S2x8192 : Shape := ⟨2, ![2, 8192]⟩
abbrev S512x8192 : Shape := ⟨2, ![512, 8192]⟩
abbrev S2x512 : Shape := ⟨2, ![2, 512]⟩
abbrev S2x32x32 : Shape := ⟨3, ![2, 32, 32]⟩
abbrev S2x4096 : Shape := ⟨2, ![2, 4096]⟩
abbrev S2x64x64 : Shape := ⟨3, ![2, 64, 64]⟩

abbrev nBuf : Space → Nat
  | .hbm => 8
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S1024x65536, .f32⟩
  | .hbm, ⟨2, _⟩ => ⟨S4096x65536, .f32⟩
  | .hbm, ⟨3, _⟩ => ⟨S2x65536, .f32⟩
  | .hbm, ⟨4, _⟩ => ⟨S2x1024, .f32⟩
  | .hbm, ⟨5, _⟩ => ⟨S2x32x32, .f32⟩
  | .hbm, ⟨6, _⟩ => ⟨S2x4096, .f32⟩
  | .hbm, ⟨7, _⟩ => ⟨S2x64x64, .f32⟩
  | .local _ .vmem, ⟨0, _⟩ => ⟨S2x8192, .f32⟩
  | .local _ .vmem, ⟨1, _⟩ => ⟨S2x8192, .f32⟩
  | .local _ .vmem, ⟨2, _⟩ => ⟨S512x8192, .f32⟩
  | .local _ .vmem, ⟨3, _⟩ => ⟨S512x8192, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x8192, .f32⟩
  | .local _ .vmem, ⟨8, _⟩ => ⟨S2x8192, .f32⟩
  | .local _ .vmem, ⟨9, _⟩ => ⟨S512x8192, .f32⟩
  | .local _ .vmem, ⟨10, _⟩ => ⟨S512x8192, .f32⟩
  | .local _ .vmem, ⟨11, _⟩ => ⟨S2x512, .f32⟩
  | .local _ .vmem, ⟨12, _⟩ => ⟨S2x512, .f32⟩
  | .local _ .vmem, ⟨13, _⟩ => ⟨S2x512, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2x256x256_S2x65536 : S2x256x256.ShapeCasts S2x65536
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S512x8192_S512x8192_0_0 : ∀ a, (![0, 0] : Fin 2 → Nat) a + S512x8192.size a ≤ S512x8192.size a
  h_S512x8192 : 0 < S512x8192.numel
  shapeCasts_S2x1024_S2x32x32 : S2x1024.ShapeCasts S2x32x32
  shapeCasts_S2x4096_S2x64x64 : S2x4096.ShapeCasts S2x64x64
  dot_S2x8192_S512x8192_S2x512_1_1_0_0_n_n_wf : DotDims.WF S2x8192 S512x8192 S2x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x65536.size a
  hwx0_0 : ∀ i : grid0.Coords, EltTy.bits .f32 = 32 ∨ (Rect.block (s := S2x65536) S2x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S1024x65536.size a
  hwx0_1 : ∀ i : grid0.Coords, EltTy.bits .f32 = 32 ∨ (Rect.block (s := S1024x65536) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x1024.size a
  hwx0_2 : ∀ i : grid0.Coords, EltTy.bits .f32 = 32 ∨ (Rect.block (s := S2x1024) S2x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x8192.size a ≤ S2x65536.size a
  hwx1_0 : ∀ i : grid1.Coords, EltTy.bits .f32 = 32 ∨ (Rect.block (s := S2x65536) S2x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8192.size a ≤ S4096x65536.size a
  hwx1_1 : ∀ i : grid1.Coords, EltTy.bits .f32 = 32 ∨ (Rect.block (s := S4096x65536) S512x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512.size a ≤ S2x4096.size a
  hwx1_2 : ∀ i : grid1.Coords, EltTy.bits .f32 = 32 ∨ (Rect.block (s := S2x4096) S2x512.size (cc1_transform_2 i) (hinb1_2 i)).WholeWords (EltTy.packing .f32)

variable [Facts₀]

def dot_S2x8192_S512x8192_S2x512_1_1_0_0_n_n : DotDims S2x8192 S512x8192 S2x512 where
  lhsContracting := [1]
  rhsContracting := [1]
  lhsNonContracting := [0]
  rhsNonContracting := [0]
  lhsBatch := []
  rhsBatch := []
  wf := dot_S2x8192_S512x8192_S2x512_1_1_0_0_n_n_wf

abbrev win0_0 : Pipeline.Window sig grid0 :=
  Pipeline.Window.ofSpec (Memref.whole main_v0) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S2x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x256x256 : Shape := ⟨3, ![2, 256, 256]⟩
abbrev S1024x65536 : Shape := ⟨2, ![1024, 65536]⟩
abbrev S4096x65536 : Shape := ⟨2, ![4096, 65536]⟩
abbrev S2x65536 : Shape := ⟨2, ![2, 65536]⟩
abbrev S65536x1024 : Shape := ⟨2, ![65536, 1024]⟩
abbrev S2x1024 : Shape := ⟨2, ![2, 1024]⟩
abbrev S2x32x32 : Shape := ⟨3, ![2, 32, 32]⟩
abbrev S65536x4096 : Shape := ⟨2, ![65536, 4096]⟩
abbrev S2x4096 : Shape := ⟨2, ![2, 4096]⟩
abbrev S2x64x64 : Shape := ⟨3, ![2, 64, 64]⟩

abbrev nBuf : Space → Nat
  | .hbm => 10
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S1024x65536, .f32⟩
  | .hbm, ⟨2, _⟩ => ⟨S4096x65536, .f32⟩
  | .hbm, ⟨3, _⟩ => ⟨S2x65536, .f32⟩
  | .hbm, ⟨4, _⟩ => ⟨S65536x1024, .f32⟩
  | .hbm, ⟨5, _⟩ => ⟨S2x1024, .f32⟩
  | .hbm, ⟨6, _⟩ => ⟨S2x32x32, .f32⟩
  | .hbm, ⟨7, _⟩ => ⟨S65536x4096, .f32⟩
  | .hbm, ⟨8, _⟩ => ⟨S2x4096, .f32⟩
  | .hbm, ⟨9, _⟩ => ⟨S2x64x64, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S2x256x256_S2x65536 : S2x256x256.ShapeCasts S2x65536
  transposes_S1024x65536_S65536x1024_1_0 : S1024x65536.Transposes [1, 0] S65536x1024
  shapeCasts_S2x1024_S2x32x32 : S2x1024.ShapeCasts S2x32x32
  transposes_S4096x65536_S65536x4096_1_0 : S4096x65536.Transposes [1, 0] S65536x4096
  shapeCasts_S2x4096_S2x64x64 : S2x4096.ShapeCasts S2x64x64
  dot_S2x65536_S65536x1024_S2x1024_1_0_0_1_n_n_wf : DotDims.WF S2x65536 S65536x1024 S2x1024 [1] [0] [0] [1] [] []
  dot_S2x65536_S65536x4096_S2x4096_1_0_0_1_n_n_wf : DotDims.WF S2x65536 S65536x4096 S2x4096 [1] [0] [0] [1] [] []

variable [Facts₀]

def dot_S2x65536_S65536x1024_S2x1024_1_0_0_1_n_n : DotDims S2x65536 S65536x1024 S2x1024 where
  lhsContracting := [1]
  rhsContracting := [0]
  lhsNonContracting := [0]
  rhsNonContracting := [1]
  lhsBatch := []
  rhsBatch := []
  wf := dot_S2x65536_S65536x1024_S2x1024_1_0_0_1_n_n_wf
def dot_S2x65536_S65536x4096_S2x4096_1_0_0_1_n_n : DotDims S2x65536 S65536x4096 S2x4096 where
  lhsContracting := [1]
  rhsContracting := [0]
  lhsNonContracting := [0]
  rhsNonContracting := [1]
  lhsBatch := []
  rhsBatch := []
  wf := dot_S2x65536_S65536x4096_S2x4096_1_0_0_1_n_n_wf

class Facts : Prop extends Facts₀ where

variable [Facts]
-- ==== Proof.LibWholeStore.lean ====
/-
  A buffer written through its whole rectangle.

  A store whose rectangle starts at the origin and has the buffer's own extents overwrites every element.  So a
  buffer written once that way reads back as the payload, whatever it held before; written twice, as the later
  payload.  Stated for any view of the shape, any element type and any value family.
-/
import Idealize.ShloMosaic.Lib.Pipeline.FrameBody
import Idealize.ShloMosaic.Lib.Pipeline.Value

noncomputable section

namespace WholeStore

open Idealize.ShloMosaic

variable {Val : EltTy → Type} [∀ e, Nonempty (Val e)]

/-- The offset of a whole-buffer access of rank 2: the origin. -/
theorem origin2 : (![0, 0] : Fin 2 → Nat) = fun _ => 0 := by funext a; fin_cases a <;> rfl

/-- Every index lies in the whole rectangle. -/
theorem mem_whole {S : Shape} (inb : ∀ a, (fun _ => 0 : Fin S.rank → Nat) a + S.size a ≤ S.size a) (y : S.Idx) :
    y ∈ (Rect.unit (fun _ => 0) S.size inb).set := by
  show y ∈ (Rect.whole S).set; rw [Rect.set_whole]; exact Finset.mem_univ y

/-- A buffer written once through its whole rectangle reads back as what was written. -/
theorem read_one_store {sig : RefSig} {κ : Kind} {sp : Space} {S : Shape} {e : EltTy} (v : View sig κ sp S e) (f : v.ty.Contents Val)
    {off : Fin S.rank → Nat} (h : off = fun _ => 0) (inb : ∀ a, off a + S.size a ≤ S.size a) (p : S.Idx → Val e) :
    v.read Val (v.writes Val f [⟨Rect.unit off S.size inb, p⟩]) = p := by
  subst h
  rw [View.read_writes_eq_canon _ _ _ (fun y => ⟨_, List.mem_singleton_self _, mem_whole inb y⟩), View.canon_unit_zero rfl]

/-- Written twice through its whole rectangle, it reads back as the later payload (the list is latest first). -/
theorem read_two_stores {sig : RefSig} {κ : Kind} {sp : Space} {S : Shape} {e : EltTy} (v : View sig κ sp S e) (f : v.ty.Contents Val)
    {off : Fin S.rank → Nat} (h : off = fun _ => 0) (inb : ∀ a, off a + S.size a ≤ S.size a) (p q : S.Idx → Val e) :
    v.read Val (v.writes Val f [⟨Rect.unit off S.size inb, p⟩, ⟨Rect.unit off S.size inb, q⟩]) = p := by
  subst h
  rw [View.read_writes_eq_canon _ _ _ (fun y => ⟨_, List.mem_cons_self, mem_whole inb y⟩), View.canon_cons_unit_zero rfl]

end WholeStore

end
-- ==== Proof.Kernel.Steps0.lean ====
/-
  Region 0 (the 2 x 1024 product, grid 2 x 8): the kernel body run whole at one grid point (n, k), in the three
  shapes the coordinate k along the contracted axis gives it.

  The body keeps a 2 x 512 accumulator in its scratch buffer.  With x the point's 2 x 8192 block of the flattened
  input and w its 512 x 8192 block of the selection matrix, one pass replaces the accumulator s by
  s + x * w^T (`step0 x w s`).  At k = 0 the accumulator is first set to the zero block (`zero0`), so the pass
  leaves step0 x w zero0; at 0 < k < 7 it leaves step0 x w s over what the point before left; at k = 7 it does the
  same and then copies the accumulator into the output window's buffer.  At k < 7 the output buffer is not touched.
-/
import proofs.«181708_j32916629357225_1_alg».proof.Proof.Gen.Kernel.Launch
import proofs.«181708_j32916629357225_1_alg».proof.Proof.Gen.Kernel.Skeleton
import proofs.«181708_j32916629357225_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«181708_j32916629357225_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open WholeStore (origin2 read_one_store read_two_stores)

variable {F : FTy → Type} [FloatOps F]

local notation "𝕄" => MT nD τ sig Unit (Elt F) ℕ (UR sig nD τ) ℕ

/-! ## The coordinate along the contracted axis, in closed form over the grid -/

/-- The body's first branch: k = 0 (the accumulator is reset). -/
abbrev isFirst0 (i : grid0.Coords) : Prop := (Scalar.cmpi .ne (Scalar.extui (Scalar.cmpi .eq (BitVec.ofNat 32 (i 1).val) 0#32)) 0#32) = 1#1
/-- The body's last branch: k = 7 (the accumulator is copied out). -/
abbrev isLast0 (i : grid0.Coords) : Prop := k0_cond2 i = 1#1

/-- Point t = 8 n + k has k = 0 exactly when t is a multiple of 8. -/
theorem isFirst0_iff : ∀ t : Fin cfg0.N, isFirst0 (grid0.coords t) ↔ t.val % 8 = 0 :=
  (by decide +kernel : ∀ t : Fin grid0.N, isFirst0 (grid0.coords t) ↔ t.val % 8 = 0)
/-- Point t = 8 n + k has k = 7 exactly when t is 7 modulo 8. -/
theorem isLast0_iff : ∀ t : Fin cfg0.N, isLast0 (grid0.coords t) ↔ t.val % 8 = 7 :=
  (by decide +kernel : ∀ t : Fin grid0.N, isLast0 (grid0.coords t) ↔ t.val % 8 = 7)

/-- At k < 7 the output window is idle: the body stores nothing into it, -/
theorem idle0_out : ∀ t : Fin cfg0.N, ¬ isLast0 (grid0.coords t) → cfg0.idle 2 (grid0.coords t) = true := by decide +kernel
/-- and the pipeline does not write its block back there. -/
theorem noFlush0_out : ∀ t : Fin cfg0.N, ¬ isLast0 (grid0.coords t) → (cfg0.win 2).flush t = false := by decide +kernel
/-- At k = 7 the output window is live. -/
theorem live0_out : ∀ t : Fin cfg0.N, isLast0 (grid0.coords t) → cfg0.idle 2 (grid0.coords t) = false := by decide +kernel
/-- The two input windows are never idle. -/
theorem live0_x : ∀ t : Fin cfg0.N, cfg0.idle 0 (grid0.coords t) = false := by decide +kernel
theorem live0_w : ∀ t : Fin cfg0.N, cfg0.idle 1 (grid0.coords t) = false := by decide +kernel

/-! ## One pass of the accumulator -/

/-- The zero block the accumulator is reset to. -/
abbrev zero0 : Vec F S2x512 .f32 := k0_pay1 (F := F)
/-- One pass: the accumulator s becomes s + x * w^T. -/
abbrev step0 (x : Vec F S2x8192 .f32) (w : Vec F S512x8192 .f32) (s : Vec F S2x512 .f32) : Vec F S2x512 .f32 := k0_pay2 x w s

/-! ## The body at a point with 0 < k < 7 -/

/-- The inputs' buffers at x and w, the output's at o, the accumulator at s: the body runs to the inputs and the
    output as they were and the accumulator at step0 x w s. -/
theorem run0_mid (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst0 i) (hl : ¬ isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step0 x w s)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 0 -/

/-- The accumulator at anything: the body resets it and runs one pass, leaving step0 x w zero0. -/
theorem run0_first (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : isFirst0 i) (hl : ¬ isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step0 x w zero0)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_two_stores _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 7 -/

/-- The pass as at 0 < k < 7, and then the accumulator copied into the output's buffer. -/
theorem run0_last (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst0 i) (hl : isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare (step0 x w s) ∗ owns (c : Thread nD τ) arg5 fullShare (step0 x w s)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_one_store _ _ origin2]
    simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

end Cert.Kernel.Hand

end
-- ==== Proof.Kernel.Rest0.lean ====
/-
  Region 0's scoped buffers that no window stages: its accumulator's buffer, and the seven buffers that belong to
  the other region (which region 0 never touches).  What the pipeline hands a region with no protocol of its own is
  these at anything, beside the generator register.
-/
import proofs.«181708_j32916629357225_1_alg».proof.Proof.Gen.Kernel.Launch
import Idealize.ShloMosaic.Lib.Pipeline.Frame
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The accumulator's buffer. -/
abbrev scr0 : Memref sig .tc .vmem S2x512 .f32 := Memref.whole cc0_scratch0

/-- The other region's staging buffers and scratch, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the pipeline hands the region: the accumulator's buffer at anything, the other scoped buffers, the
    generator register. -/
theorem PhiA0_eq (c : Dev nD) :
    (Pipeline.ΦA spec0 c : sProp 𝕄) = iprop(((∃ d, owns (c : Thread nD τ) scr0 fullShare d) ∗ others0 c) ∗ (∃ r, prngReg c r)) := by
  unfold Pipeline.ΦA others0; rw [scopedRest0_eq]; simp only [scr0, owns_whole]; rfl

end Cert.Kernel.Hand

end
-- ==== Proof.Kernel.Data0.lean ====
/-
  Region 0 (the 2 x 1024 product, grid 2 x 8), run over its 16 grid points: what the accumulator holds after each
  point, the region's invariant, and the body's obligation to the pipeline at every point.

  Point t = 8 n + k reads block k of the flattened input (x_t) and block (n, k) of the selection matrix (w_t).
  After point t the accumulator holds acc0 t = step0 x_t w_t (prev), where prev is the zero block when k = 0 and
  acc0 (t - 1) otherwise: the partial product over the first k + 1 blocks of the contracted axis.  At k = 7 the
  output window's buffer holds the same, and the pipeline writes it back as block n of the 2 x 1024 result.
  Between points the region owns its scratch buffer at acc0 of the point before (at anything before the first
  point), the other scoped buffers at anything, and the generator register.
-/
import proofs.«181708_j32916629357225_1_alg».proof.Proof.Kernel.Steps0
import proofs.«181708_j32916629357225_1_alg».proof.Proof.Kernel.Rest0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered: a parameter, fixed when the regions are put in sequence
variable (V : (c : Dev nD) → (b : Ref sig .tc) → Buf (Elt F) ((c : Thread nD τ).loc b))

/-! ## The blocks the points read -/

/-- Window w's block at point t, of the arrays as the region finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The flattened input's window is fetched at every point, so its buffer holds the point's block, -/
theorem before0_x {c : Dev nD} (dat : Dat τ (Elt F) Unit ℕ (UR sig nD τ) ℕ cfg0 c) (hA : dat.A 0 = V c (Pipeline.arrRef spec0 0))
    (t : Fin cfg0.N) (d) : dat.before 0 t d = blk0 V c 0 t :=
  (dat.before_fetched 0 t (fetch0_0 t) d).trans (by unfold Dat.fetched Dat.blockOf blk0; rw [hA]; rfl)

/-- and so does the selection matrix's. -/
theorem before0_w {c : Dev nD} (dat : Dat τ (Elt F) Unit ℕ (UR sig nD τ) ℕ cfg0 c) (hA : dat.A 1 = V c (Pipeline.arrRef spec0 1))
    (t : Fin cfg0.N) (d) : dat.before 1 t d = blk0 V c 1 t :=
  (dat.before_fetched 1 t (fetch0_1 t) d).trans (by unfold Dat.fetched Dat.blockOf blk0; rw [hA]; rfl)

/-! ## The accumulator after each point -/

/-- What the accumulator holds after point n: one pass over the zero block when n is a multiple of 8 (k = 0), over
    what point n - 1 left otherwise. -/
def acc0 (c : Dev nD) : (n : ℕ) → n < cfg0.N → Vec F S2x512 .f32
  | 0, h => step0 (blk0 V c 0 ⟨0, h⟩) (blk0 V c 1 ⟨0, h⟩) zero0
  | n + 1, h => step0 (blk0 V c 0 ⟨n + 1, h⟩) (blk0 V c 1 ⟨n + 1, h⟩) (if (n + 1) % 8 = 0 then zero0 else acc0 c n (Nat.lt_of_succ_lt h))

/-- At k = 0 the pass starts from zero. -/
theorem acc0_reset (c : Dev nD) (t : Fin cfg0.N) (h : t.val % 8 = 0) :
    acc0 V c t.val t.isLt = step0 (blk0 V c 0 t) (blk0 V c 1 t) zero0 := by
  obtain ⟨n, hn⟩ := t
  cases n with
  | zero => rfl
  | succ n => exact congrArg (step0 _ _) (if_pos h)

/-- At k > 0 it starts from what the point before left. -/
theorem acc0_next (c : Dev nD) (t : Fin cfg0.N) (h : ¬ t.val % 8 = 0) :
    acc0 V c t.val t.isLt = step0 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact congrArg (step0 _ _) (if_neg h)

/-! ## The region's invariant -/

/-- The invariant before position n: before the first point what the pipeline hands over; after point n - 1 the
    accumulator at acc0 (n - 1). -/
def Phi0 (c : Dev nD) : (n : ℕ) → n ≤ cfg0.N → sProp 𝕄
  | 0, _ => Pipeline.ΦA spec0 c
  | n + 1, hn => iprop((owns (c : Thread nD τ) scr0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scr0 fullShare (acc0 V c n hn) ∗ others0 c) ∗ (∃ r, prngReg c r)) := rfl

theorem Phi0_pos (c : Dev nD) (n : ℕ) (h : n ≤ cfg0.N) (hz : n ≠ 0) :
    Phi0 V c n h = iprop((owns (c : Thread nD τ) scr0 fullShare (acc0 V c (n - 1) (by omega)) ∗ others0 c) ∗ (∃ r, prngReg c r)) := by
  cases n with
  | zero => exact absurd rfl hz
  | succ n => rfl

/-! ## The pipeline's proof data -/

/-- The arrays as the region finds them; after the body at point t the inputs' buffers at their blocks and the
    output's at the accumulator (consulted only at k = 7, where the body stores it); the invariant above; nothing
    owed to other cores; every array held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := Phi0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem after0_x (c : Dev nD) (t : Fin cfg0.N) : (dat0 V c).after 0 t = blk0 V c 0 t := by dsimp only [dat0]
theorem after0_w (c : Dev nD) (t : Fin cfg0.N) : (dat0 V c).after 1 t = blk0 V c 1 t := by dsimp only [dat0]
theorem after0_out (c : Dev nD) (t : Fin cfg0.N) : (dat0 V c).after 2 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem found0_x (c : Dev nD) (t : Fin cfg0.N) (d) : (dat0 V c).before 0 t d = blk0 V c 0 t :=
  before0_x V (dat0 V c) (A0_eq V c 0) t d
theorem found0_w (c : Dev nD) (t : Fin cfg0.N) (d) : (dat0 V c).before 1 t d = blk0 V c 1 t :=
  before0_w V (dat0 V c) (A0_eq V c 1) t d

/-! ## The body's obligation at a point -/

/-- What the body is called with at point t: the invariant, nothing owed, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at point t, by the value of k = t mod 8: at k = 7 the pass and the copy to the output; at k = 0 the reset
    and the pass (the accumulator found at anything before the very first point, at the previous block row's total
    otherwise); at 0 < k < 7 the pass alone.  At k < 7 the output's buffer goes back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_x, found0_w]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_x t], after0_x]
  rw [show (dat0 V c).leavesExact 1 t = owns (c : Thread nD τ) (st0_1 t) fullShare ((dat0 V c).after 1 t) from by
    unfold Dat.leavesExact; rw [live0_w t], after0_w]
  by_cases hl : t.val % 8 = 7
  · have hnf : ¬ t.val % 8 = 0 := by omega
    have hz : t.val ≠ 0 := by omega
    rw [show (dat0 V c).leavesExact 2 t = owns (c : Thread nD τ) (st0_2 t) fullShare ((dat0 V c).after 2 t) from by
      unfold Dat.leavesExact; rw [live0_out t ((isLast0_iff t).mpr hl)], after0_out]
    rw [acc0_next V c t hnf, Phi0_castSucc V c t, Phi0_pos V c _ _ hz]
    iintro ⟨⟨⟨HS, HR⟩, Hg⟩, Ho, ⟨%d0, H0⟩, ⟨%d1, H1⟩, ⟨%d2, H2⟩⟩
    iapply (run0_last c (grid0.coords t) _ _ _ _ _ _ _ _ (fun h => hnf ((isFirst0_iff t).mp h)) ((isLast0_iff t).mpr hl) (blk0 V c 0 t) (blk0 V c 1 t) _ _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hnl : ¬ isLast0 (grid0.coords t) := fun h => hl ((isLast0_iff t).mp h)
    rw [Dat.leavesExact_idle (dat0 V c) 2 t (idle0_out t hnl) (noFlush0_out t hnl)]
    by_cases hf : t.val % 8 = 0
    · rw [acc0_reset V c t hf]
      by_cases hz : t.val = 0
      · rw [Phi0_castSucc V c t, Phi0_zero V c _ _ hz, PhiA0_eq]
        iintro ⟨⟨⟨⟨%s, HS⟩, HR⟩, Hg⟩, Ho, ⟨%d0, H0⟩, ⟨%d1, H1⟩, ⟨%d2, H2⟩⟩
        iapply (run0_first c (grid0.coords t) _ _ _ _ _ _ _ _ ((isFirst0_iff t).mpr hf) hnl (blk0 V c 0 t) (blk0 V c 1 t) _ s Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi0_castSucc V c t, Phi0_pos V c _ _ hz]
        iintro ⟨⟨⟨HS, HR⟩, Hg⟩, Ho, ⟨%d0, H0⟩, ⟨%d1, H1⟩, ⟨%d2, H2⟩⟩
        iapply (run0_first c (grid0.coords t) _ _ _ _ _ _ _ _ ((isFirst0_iff t).mpr hf) hnl (blk0 V c 0 t) (blk0 V c 1 t) _ _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => hf (by rw [h])
      rw [acc0_next V c t hf, Phi0_castSucc V c t, Phi0_pos V c _ _ hz]
      iintro ⟨⟨⟨HS, HR⟩, Hg⟩, Ho, ⟨%d0, H0⟩, ⟨%d1, H1⟩, ⟨%d2, H2⟩⟩
      iapply (run0_mid c (grid0.coords t) _ _ _ _ _ _ _ _ (fun h => hf ((isFirst0_iff t).mp h)) hnl (blk0 V c 0 t) (blk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the pipeline hands over is the invariant before the first point. -/
theorem Phi0_in (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back: the accumulator's contents are forgotten. -/
theorem Phi0_out (c : Dev nD) : (dat0 V c).Φ (Fin.last cfg0.N) ⊢ Pipeline.ΦA spec0 c := by
  rw [show (dat0 V c).Φ (Fin.last cfg0.N) = Phi0 V c cfg0.N (Nat.le_refl _) from rfl,
    Phi0_pos V c _ _ (by have : cfg0.N = 16 := N_0; omega), PhiA0_eq]
  iintro ⟨⟨HS, HR⟩, Hg⟩
  isplitl [HS HR]
  · isplitl [HS]; · iexists _; iexact HS
    iexact HR
  iexact Hg

end Cert.Kernel.Hand

end
-- ==== Proof.Kernel.Steps1.lean ====
/-
  Region 1 (the 2 x 4096 product, grid 8 x 8): the kernel body run whole at one grid point (n, k), in the three
  shapes the coordinate k along the contracted axis gives it.

  The body keeps a 2 x 512 accumulator in its scratch buffer.  With x the point's 2 x 8192 block of the flattened
  input and w its 512 x 8192 block of the selection matrix, one pass replaces the accumulator s by
  s + x * w^T (`step1 x w s`).  At k = 0 the accumulator is first set to the zero block (`zero1`), so the pass
  leaves step1 x w zero1; at 0 < k < 7 it leaves step1 x w s over what the point before left; at k = 7 it does the
  same and then copies the accumulator into the output window's buffer.  At k < 7 the output buffer is not touched.
-/
import proofs.«181708_j32916629357225_1_alg».proof.Proof.Gen.Kernel.Launch
import proofs.«181708_j32916629357225_1_alg».proof.Proof.Gen.Kernel.Skeleton
import proofs.«181708_j32916629357225_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«181708_j32916629357225_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open WholeStore (origin2 read_one_store read_two_stores)

variable {F : FTy → Type} [FloatOps F]

local notation "𝕄" => MT nD τ sig Unit (Elt F) ℕ (UR sig nD τ) ℕ

/-! ## The coordinate along the contracted axis, in closed form over the grid -/

/-- The body's first branch: k = 0 (the accumulator is reset). -/
abbrev isFirst1 (i : grid1.Coords) : Prop := (Scalar.cmpi .ne (Scalar.extui (Scalar.cmpi .eq (BitVec.ofNat 32 (i 1).val) 0#32)) 0#32) = 1#1
/-- The body's last branch: k = 7 (the accumulator is copied out). -/
abbrev isLast1 (i : grid1.Coords) : Prop := k1_cond2 i = 1#1

/-- Point t = 8 n + k has k = 0 exactly when t is a multiple of 8. -/
theorem isFirst1_iff : ∀ t : Fin cfg1.N, isFirst1 (grid1.coords t) ↔ t.val % 8 = 0 :=
  (by decide +kernel : ∀ t : Fin grid1.N, isFirst1 (grid1.coords t) ↔ t.val % 8 = 0)
/-- Point t = 8 n + k has k = 7 exactly when t is 7 modulo 8. -/
theorem isLast1_iff : ∀ t : Fin cfg1.N, isLast1 (grid1.coords t) ↔ t.val % 8 = 7 :=
  (by decide +kernel : ∀ t : Fin grid1.N, isLast1 (grid1.coords t) ↔ t.val % 8 = 7)

/-- At k < 7 the output window is idle: the body stores nothing into it, -/
theorem idle1_out : ∀ t : Fin cfg1.N, ¬ isLast1 (grid1.coords t) → cfg1.idle 2 (grid1.coords t) = true := by decide +kernel
/-- and the pipeline does not write its block back there. -/
theorem noFlush1_out : ∀ t : Fin cfg1.N, ¬ isLast1 (grid1.coords t) → (cfg1.win 2).flush t = false := by decide +kernel
/-- At k = 7 the output window is live. -/
theorem live1_out : ∀ t : Fin cfg1.N, isLast1 (grid1.coords t) → cfg1.idle 2 (grid1.coords t) = false := by decide +kernel
/-- The two input windows are never idle. -/
theorem live1_x : ∀ t : Fin cfg1.N, cfg1.idle 0 (grid1.coords t) = false := by decide +kernel
theorem live1_w : ∀ t : Fin cfg1.N, cfg1.idle 1 (grid1.coords t) = false := by decide +kernel

/-! ## One pass of the accumulator -/

/-- The zero block the accumulator is reset to. -/
abbrev zero1 : Vec F S2x512 .f32 := k1_pay1 (F := F)
/-- One pass: the accumulator s becomes s + x * w^T. -/
abbrev step1 (x : Vec F S2x8192 .f32) (w : Vec F S512x8192 .f32) (s : Vec F S2x512 .f32) : Vec F S2x512 .f32 := k1_pay2 x w s

/-! ## The body at a point with 0 < k < 7 -/

/-- The inputs' buffers at x and w, the output's at o, the accumulator at s: the body runs to the inputs and the
    output as they were and the accumulator at step1 x w s. -/
theorem run1_mid (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst1 i) (hl : ¬ isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step1 x w s)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 0 -/

/-- The accumulator at anything: the body resets it and runs one pass, leaving step1 x w zero1. -/
theorem run1_first (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : isFirst1 i) (hl : ¬ isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step1 x w zero1)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_two_stores _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 7 -/

/-- The pass as at 0 < k < 7, and then the accumulator copied into the output's buffer. -/
theorem run1_last (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst1 i) (hl : isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare (step1 x w s) ∗ owns (c : Thread nD τ) arg5 fullShare (step1 x w s)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_one_store _ _ origin2]
    simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

end Cert.Kernel.Hand

end
-- ==== Proof.Kernel.Rest1.lean ====
/-
  Region 1's scoped buffers that no window stages: its accumulator's buffer, and the seven buffers that belong to
  the other region (which region 1 never touches).  What the pipeline hands a region with no protocol of its own is
  these at anything, beside the generator register.
-/
import proofs.«181708_j32916629357225_1_alg».proof.Proof.Gen.Kernel.Launch
import Idealize.ShloMosaic.Lib.Pipeline.Frame
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The accumulator's buffer. -/
abbrev scr1 : Memref sig .tc .vmem S2x512 .f32 := Memref.whole cc1_scratch0

/-- The other region's staging buffers and scratch, each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Nine separate resources, the eighth moved to the front. -/
theorem rotate_last (P0 P1 P2 P3 P4 P5 P6 S G : sProp 𝕄) :
    iprop((P0 ∗ P1 ∗ P2 ∗ P3 ∗ P4 ∗ P5 ∗ P6 ∗ S) ∗ G) = iprop((S ∗ P0 ∗ P1 ∗ P2 ∗ P3 ∗ P4 ∗ P5 ∗ P6) ∗ G) := by
  have h1 : iprop((P0 ∗ P1 ∗ P2 ∗ P3 ∗ P4 ∗ P5 ∗ P6 ∗ S) ∗ G) ⊢ iprop((S ∗ P0 ∗ P1 ∗ P2 ∗ P3 ∗ P4 ∗ P5 ∗ P6) ∗ G) := by
    iintro ⟨⟨H0, H1, H2, H3, H4, H5, H6, HS⟩, Hg⟩
    isplitl [H0 H1 H2 H3 H4 H5 H6 HS]
    · isplitl [HS]; · iexact HS
      isplitl [H0]; · iexact H0
      isplitl [H1]; · iexact H1
      isplitl [H2]; · iexact H2
      isplitl [H3]; · iexact H3
      isplitl [H4]; · iexact H4
      isplitl [H5]; · iexact H5
      iexact H6
    iexact Hg
  have h2 : iprop((S ∗ P0 ∗ P1 ∗ P2 ∗ P3 ∗ P4 ∗ P5 ∗ P6) ∗ G) ⊢ iprop((P0 ∗ P1 ∗ P2 ∗ P3 ∗ P4 ∗ P5 ∗ P6 ∗ S) ∗ G) := by
    iintro ⟨⟨HS, H0, H1, H2, H3, H4, H5, H6⟩, Hg⟩
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact Hg
  exact equiv_iff.mp ⟨h1, h2⟩

/-- What the pipeline hands the region: the accumulator's buffer at anything, the other scoped buffers, the
    generator register.  (The pipeline lists the accumulator's buffer last.) -/
theorem PhiA1_eq (c : Dev nD) :
    (Pipeline.ΦA spec1 c : sProp 𝕄) = iprop(((∃ d, owns (c : Thread nD τ) scr1 fullShare d) ∗ others1 c) ∗ (∃ r, prngReg c r)) := by
  unfold Pipeline.ΦA others1; rw [scopedRest1_eq]; simp only [scr1, owns_whole]
  exact rotate_last _ _ _ _ _ _ _ _ _

end Cert.Kernel.Hand

end
-- ==== Proof.Kernel.Data1.lean ====
/-
  Region 1 (the 2 x 4096 product, grid 8 x 8), run over its 64 grid points: what the accumulator holds after each
  point, the region's invariant, and the body's obligation to the pipeline at every point.

  Point t = 8 n + k reads block k of the flattened input (x_t) and block (n, k) of the selection matrix (w_t).
  After point t the accumulator holds acc1 t = step1 x_t w_t (prev), where prev is the zero block when k = 0 and
  acc1 (t - 1) otherwise: the partial product over the first k + 1 blocks of the contracted axis.  At k = 7 the
  output window's buffer holds the same, and the pipeline writes it back as block n of the 2 x 4096 result.
  Between points the region owns its scratch buffer at acc1 of the point before (at anything before the first
  point), the other scoped buffers at anything, and the generator register.
-/
import proofs.«181708_j32916629357225_1_alg».proof.Proof.Kernel.Steps1
import proofs.«181708_j32916629357225_1_alg».proof.Proof.Kernel.Rest1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered: a parameter, fixed when the regions are put in sequence
variable (V : (c : Dev nD) → (b : Ref sig .tc) → Buf (Elt F) ((c : Thread nD τ).loc b))

/-! ## The blocks the points read -/

/-- Window w's block at point t, of the arrays as the region finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The flattened input's window is fetched at every point, so its buffer holds the point's block, -/
theorem before1_x {c : Dev nD} (dat : Dat τ (Elt F) Unit ℕ (UR sig nD τ) ℕ cfg1 c) (hA : dat.A 0 = V c (Pipeline.arrRef spec1 0))
    (t : Fin cfg1.N) (d) : dat.before 0 t d = blk1 V c 0 t :=
  (dat.before_fetched 0 t (fetch1_0 t) d).trans (by unfold Dat.fetched Dat.blockOf blk1; rw [hA]; rfl)

/-- and so does the selection matrix's. -/
theorem before1_w {c : Dev nD} (dat : Dat τ (Elt F) Unit ℕ (UR sig nD τ) ℕ cfg1 c) (hA : dat.A 1 = V c (Pipeline.arrRef spec1 1))
    (t : Fin cfg1.N) (d) : dat.before 1 t d = blk1 V c 1 t :=
  (dat.before_fetched 1 t (fetch1_1 t) d).trans (by unfold Dat.fetched Dat.blockOf blk1; rw [hA]; rfl)

/-! ## The accumulator after each point -/

/-- What the accumulator holds after point n: one pass over the zero block when n is a multiple of 8 (k = 0), over
    what point n - 1 left otherwise. -/
def acc1 (c : Dev nD) : (n : ℕ) → n < cfg1.N → Vec F S2x512 .f32
  | 0, h => step1 (blk1 V c 0 ⟨0, h⟩) (blk1 V c 1 ⟨0, h⟩) zero1
  | n + 1, h => step1 (blk1 V c 0 ⟨n + 1, h⟩) (blk1 V c 1 ⟨n + 1, h⟩) (if (n + 1) % 8 = 0 then zero1 else acc1 c n (Nat.lt_of_succ_lt h))

/-- At k = 0 the pass starts from zero. -/
theorem acc1_reset (c : Dev nD) (t : Fin cfg1.N) (h : t.val % 8 = 0) :
    acc1 V c t.val t.isLt = step1 (blk1 V c 0 t) (blk1 V c 1 t) zero1 := by
  obtain ⟨n, hn⟩ := t
  cases n with
  | zero => rfl
  | succ n => exact congrArg (step1 _ _) (if_pos h)

/-- At k > 0 it starts from what the point before left. -/
theorem acc1_next (c : Dev nD) (t : Fin cfg1.N) (h : ¬ t.val % 8 = 0) :
    acc1 V c t.val t.isLt = step1 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact congrArg (step1 _ _) (if_neg h)

/-! ## The region's invariant -/

/-- The invariant before position n: before the first point what the pipeline hands over; after point n - 1 the
    accumulator at acc1 (n - 1). -/
def Phi1 (c : Dev nD) : (n : ℕ) → n ≤ cfg1.N → sProp 𝕄
  | 0, _ => Pipeline.ΦA spec1 c
  | n + 1, hn => iprop((owns (c : Thread nD τ) scr1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop((owns (c : Thread nD τ) scr1 fullShare (acc1 V c n hn) ∗ others1 c) ∗ (∃ r, prngReg c r)) := rfl

theorem Phi1_pos (c : Dev nD) (n : ℕ) (h : n ≤ cfg1.N) (hz : n ≠ 0) :
    Phi1 V c n h = iprop((owns (c : Thread nD τ) scr1 fullShare (acc1 V c (n - 1) (by omega)) ∗ others1 c) ∗ (∃ r, prngReg c r)) := by
  cases n with
  | zero => exact absurd rfl hz
  | succ n => rfl

/-! ## The pipeline's proof data -/

/-- The arrays as the region finds them; after the body at point t the inputs' buffers at their blocks and the
    output's at the accumulator (consulted only at k = 7, where the body stores it); the invariant above; nothing
    owed to other cores; every array held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := Phi1 V c t.val (Nat.le_of_lt_succ t.isLt)
  q _ := fullShare
  owed _ := 0

theorem A1_eq (c : Dev nD) (w : Fin cfg1.W) : (dat1 V c).A w = V c (Pipeline.arrRef spec1 w) := by
  dsimp only [dat1]

theorem after1_x (c : Dev nD) (t : Fin cfg1.N) : (dat1 V c).after 0 t = blk1 V c 0 t := by dsimp only [dat1]
theorem after1_w (c : Dev nD) (t : Fin cfg1.N) : (dat1 V c).after 1 t = blk1 V c 1 t := by dsimp only [dat1]
theorem after1_out (c : Dev nD) (t : Fin cfg1.N) : (dat1 V c).after 2 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem found1_x (c : Dev nD) (t : Fin cfg1.N) (d) : (dat1 V c).before 0 t d = blk1 V c 0 t :=
  before1_x V (dat1 V c) (A1_eq V c 0) t d
theorem found1_w (c : Dev nD) (t : Fin cfg1.N) (d) : (dat1 V c).before 1 t d = blk1 V c 1 t :=
  before1_w V (dat1 V c) (A1_eq V c 1) t d

/-! ## The body's obligation at a point -/

/-- What the body is called with at point t: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at point t, by the value of k = t mod 8: at k = 7 the pass and the copy to the output; at k = 0 the reset
    and the pass (the accumulator found at anything before the very first point, at the previous block row's total
    otherwise); at 0 < k < 7 the pass alone.  At k < 7 the output's buffer goes back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_x, found1_w]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_x t], after1_x]
  rw [show (dat1 V c).leavesExact 1 t = owns (c : Thread nD τ) (st1_1 t) fullShare ((dat1 V c).after 1 t) from by
    unfold Dat.leavesExact; rw [live1_w t], after1_w]
  by_cases hl : t.val % 8 = 7
  · have hnf : ¬ t.val % 8 = 0 := by omega
    have hz : t.val ≠ 0 := by omega
    rw [show (dat1 V c).leavesExact 2 t = owns (c : Thread nD τ) (st1_2 t) fullShare ((dat1 V c).after 2 t) from by
      unfold Dat.leavesExact; rw [live1_out t ((isLast1_iff t).mpr hl)], after1_out]
    rw [acc1_next V c t hnf, Phi1_castSucc V c t, Phi1_pos V c _ _ hz]
    iintro ⟨⟨⟨HS, HR⟩, Hg⟩, Ho, ⟨%d0, H0⟩, ⟨%d1, H1⟩, ⟨%d2, H2⟩⟩
    iapply (run1_last c (grid1.coords t) _ _ _ _ _ _ _ _ (fun h => hnf ((isFirst1_iff t).mp h)) ((isLast1_iff t).mpr hl) (blk1 V c 0 t) (blk1 V c 1 t) _ _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hnl : ¬ isLast1 (grid1.coords t) := fun h => hl ((isLast1_iff t).mp h)
    rw [Dat.leavesExact_idle (dat1 V c) 2 t (idle1_out t hnl) (noFlush1_out t hnl)]
    by_cases hf : t.val % 8 = 0
    · rw [acc1_reset V c t hf]
      by_cases hz : t.val = 0
      · rw [Phi1_castSucc V c t, Phi1_zero V c _ _ hz, PhiA1_eq]
        iintro ⟨⟨⟨⟨%s, HS⟩, HR⟩, Hg⟩, Ho, ⟨%d0, H0⟩, ⟨%d1, H1⟩, ⟨%d2, H2⟩⟩
        iapply (run1_first c (grid1.coords t) _ _ _ _ _ _ _ _ ((isFirst1_iff t).mpr hf) hnl (blk1 V c 0 t) (blk1 V c 1 t) _ s Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi1_castSucc V c t, Phi1_pos V c _ _ hz]
        iintro ⟨⟨⟨HS, HR⟩, Hg⟩, Ho, ⟨%d0, H0⟩, ⟨%d1, H1⟩, ⟨%d2, H2⟩⟩
        iapply (run1_first c (grid1.coords t) _ _ _ _ _ _ _ _ ((isFirst1_iff t).mpr hf) hnl (blk1 V c 0 t) (blk1 V c 1 t) _ _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => hf (by rw [h])
      rw [acc1_next V c t hf, Phi1_castSucc V c t, Phi1_pos V c _ _ hz]
      iintro ⟨⟨⟨HS, HR⟩, Hg⟩, Ho, ⟨%d0, H0⟩, ⟨%d1, H1⟩, ⟨%d2, H2⟩⟩
      iapply (run1_mid c (grid1.coords t) _ _ _ _ _ _ _ _ (fun h => hf ((isFirst1_iff t).mp h)) hnl (blk1 V c 0 t) (blk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the pipeline hands over is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back: the accumulator's contents are forgotten. -/
theorem Phi1_out (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by have : cfg1.N = 64 := N_1; omega), PhiA1_eq]
  iintro ⟨⟨HS, HR⟩, Hg⟩
  isplitl [HS HR]
  · isplitl [HS]; · iexists _; iexact HS
    iexact HR
  iexact Hg

end Cert.Kernel.Hand

end
-- ==== Proof.Kernel.Regions.lean ====
/-
  The whole program, in order: flatten the input; region 0 (the 2 x 1024 product); reshape its result; region 1 (the
  2 x 4096 product); reshape its result.

  Between two items the core holds every unscoped buffer at known contents.  A reshape leaves them as the host
  operation computes; a region changes only its result array, which ends at what the pipeline's write-backs of the
  accumulated blocks leave (the fold `Dat.arrAt` of the region's data); everything else, the three arguments
  included, stays as it was.  Each region is entered from the contents the item before it left, hands its scoped
  buffers and the generator register to its invariant, and gives them back at its end.  From the launch to the
  return every execution terminates, and the final memory holds each unscoped buffer at the last contents.
-/
import proofs.«181708_j32916629357225_1_alg».proof.Proof.Kernel.Data0
import proofs.«181708_j32916629357225_1_alg».proof.Proof.Kernel.Data1
import proofs.«181708_j32916629357225_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' ends -/

/-- What region 0 is entered with: the launch contents after the flattening reshape. -/
abbrev entry0 : (c : Dev nD) → (b : Ref sig .tc) → Buf (Elt F) ((c : Thread nD τ).loc b) := fun c b => Gen.V1 m c b

/-- After region 0: its arrays at what its write-backs leave, every other buffer as entered. -/
def W2 (c : Dev nD) : Valuation τ sig (Elt F) :=
  Pipeline.withArrays spec0 c (Gen.V1 m c) fun w => (dat0 (entry0 m) c).arrAt w cfg0.N

/-- Region 0's result array, as the later items read it. -/
def outs0 : Gen.Outs (F := F) := fun _ r c => W2 m c r

/-- What region 1 is entered with: that, after the first result's reshape. -/
abbrev entry1 : (c : Dev nD) → (b : Ref sig .tc) → Buf (Elt F) ((c : Thread nD τ).loc b) := fun c b => Gen.V3 m (outs0 m) c b

/-- After region 1: its arrays at what its write-backs leave, every other buffer as entered. -/
def W4 (c : Dev nD) : Valuation τ sig (Elt F) :=
  Pipeline.withArrays spec1 c (Gen.V3 m (outs0 m) c) fun w => (dat1 (entry1 m) c).arrAt w cfg1.N

/-- Both regions' result arrays, by the item they follow. -/
def outs : Gen.Outs (F := F) := fun J r c => if J = 2 then W2 m c r else W4 m c r

theorem outs_two (r : Ref sig .tc) (c : Dev nD) : outs m 2 r c = W2 m c r := if_pos rfl
theorem outs_four (r : Ref sig .tc) (c : Dev nD) : outs m 4 r c = W4 m c r := if_neg (by decide)

/-- Region 1 is entered with the same contents whichever of the two tables names region 0's result. -/
theorem V2_outs (c : Dev nD) : Gen.V2 m (outs m) c = Gen.V2 m (outs0 m) c := by
  unfold Gen.V2; rw [outs_two]; rfl
theorem V3_outs (c : Dev nD) : Gen.V3 m (outs m) c = Gen.V3 m (outs0 m) c := by
  unfold Gen.V3; rw [V2_outs]

theorem W2_arr (c : Dev nD) (w : Fin cfg0.W) :
    W2 m c (Proc.devRef .tc (Pipeline.arrRef spec0 w)) = (dat0 (entry0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (entry1 m) c).arrAt w cfg1.N := by
  unfold W4; exact Pipeline.withArrays_arr spec1 launch1.win.arr_inj c _ _ w

/-- After region 0 each of its arrays holds what the pipeline leaves: the inputs as entered, the result the fold. -/
theorem hF0 (c : Dev nD) (w : Fin cfg0.W) :
    (dat0 (entry0 m) c).arrAt w cfg0.N = (fun b : Ref sig .tc => Gen.V2 m (outs m) c b) (Pipeline.arrRef spec0 w) := by
  match w with
  | ⟨0, _⟩ => exact ((dat0 (entry0 m) c).arrAt_in 0 rfl _).trans ((A0_eq (entry0 m) c 0).trans (Gen.V2_of m (outs m) c main_v0 (by decide)).symm)
  | ⟨1, _⟩ => exact ((dat0 (entry0 m) c).arrAt_in 1 rfl _).trans ((A0_eq (entry0 m) c 1).trans (Gen.V2_of m (outs m) c main_arg1 (by decide)).symm)
  | ⟨2, _⟩ =>
    show _ = Function.update (Gen.V1 m c) (Proc.devRef .tc main_v1) (outs m 2 main_v1 c) (Proc.devRef .tc main_v1)
    rw [Function.update_self, outs_two]; exact (W2_arr m c 2).symm

/-- Every other buffer is as region 0 found it. -/
theorem hrest0 (c : Dev nD) : ∀ b, b ∉ Finset.univ.image (Pipeline.arrRef spec0) →
    (fun b : Ref sig .tc => Gen.V2 m (outs m) c b) b = entry0 m c b :=
  fun b hb => Gen.V2_of m (outs m) c b (by
    intro h; rw [List.mem_singleton] at h; subst h
    exact hb (Finset.mem_image.mpr ⟨2, Finset.mem_univ _, rfl⟩))

/-- After region 1 each of its arrays holds what the pipeline leaves. -/
theorem hF1 (c : Dev nD) (w : Fin cfg1.W) :
    (dat1 (entry1 m) c).arrAt w cfg1.N = (fun b : Ref sig .tc => Gen.V4 m (outs m) c b) (Pipeline.arrRef spec1 w) := by
  match w with
  | ⟨0, _⟩ => exact ((dat1 (entry1 m) c).arrAt_in 0 rfl _).trans ((A1_eq (entry1 m) c 0).trans ((congrFun (V3_outs m c) _).symm.trans (Gen.V4_of m (outs m) c main_v0 (by decide)).symm))
  | ⟨1, _⟩ => exact ((dat1 (entry1 m) c).arrAt_in 1 rfl _).trans ((A1_eq (entry1 m) c 1).trans ((congrFun (V3_outs m c) _).symm.trans (Gen.V4_of m (outs m) c main_arg2 (by decide)).symm))
  | ⟨2, _⟩ =>
    show _ = Function.update (Gen.V3 m (outs m) c) (Proc.devRef .tc main_v3) (outs m 4 main_v3 c) (Proc.devRef .tc main_v3)
    rw [Function.update_self, outs_four]; exact (W4_arr m c 2).symm

/-- Every other buffer is as region 1 found it. -/
theorem hrest1 (c : Dev nD) : ∀ b, b ∉ Finset.univ.image (Pipeline.arrRef spec1) →
    (fun b : Ref sig .tc => Gen.V4 m (outs m) c b) b = entry1 m c b :=
  fun b hb => (Gen.V4_of m (outs m) c b (by
    intro h; rw [List.mem_singleton] at h; subst h
    exact hb (Finset.mem_image.mpr ⟨2, Finset.mem_univ _, rfl⟩))).trans (congrFun (V3_outs m c) _)

/-! ## The proof data of both regions, and what rides beside the buffers -/

/-- Each region's data at its own entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state, and nothing owed. -/
abbrev side (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers after the flattening, left with its result array at the fold.  Its arrays
    are split out of the unscoped buffers and put back; the generator register goes into the invariant and comes out;
    the region has no semaphore of its own and owes nothing. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V1 m c) ∗ side c)
  post c := iprop(StableHlo.held (c : Thread nD τ) (Pipeline.ucRefs τ sig) (Gen.V2 m (outs m) c) ∗ side c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (entry0 m) c)
    unfold Pipeline.ΦA
    iintro ⟨Hp, -, Hr⟩
    isplitl [Hr]; · iexact Hr
    iexact Hp
  hout c := by
    rw [Pipeline.ownSems0_none]
    refine BIBase.Entails.trans (Phi0_out (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers after the first result's reshape, left with its result array at the fold;
    otherwise as region 0. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (Gen.V3 m (outs m) c) ∗ side c)
  post c := iprop(StableHlo.held (c : Thread nD τ) (Pipeline.ucRefs τ sig) (Gen.V4 m (outs m) c) ∗ side c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (entry1 m) c)
    unfold Pipeline.ΦA
    iintro ⟨Hp, -, Hr⟩
    isplitl [Hr]; · iexact Hr
    iexact Hp
  hout c := by
    rw [Pipeline.ownSems0_none]
    refine BIBase.Entails.trans (Phi1_out (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At the end the generator register stays with the buffers and the (empty) debt stands apart. -/
theorem side_end (c : Dev nD) (X : sProp 𝕄) :
    iprop(X ∗ side c) ⊢ (iprop((X ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, and the final memory
    holds every unscoped buffer at the last contents: the launch contents carried through the three reshapes and the
    two regions. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => side) () (pdats m) (reg0 m) (reg1 m))
    (fun c Q => by
      rewrite [main_chain c, Seg.run_eq_chain,
        show (Gen.segs m (outs m) 𝒱₀ L lv (fun _ => side) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ side c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, side_end c _⟩)
    (hinit := ?_)
    (QY := fun c s => ∀ b ∈ Pipeline.ucRefs τ sig, s.mem ((c : Thread nD τ).1, b) = Gen.V5 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Gen.V5 m (outs m) c) s')
    isplitl [Hh] <;> iassumption

/-- The frame: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c)⟩) (run_all m ρ)

end Cert.Kernel.Hand

end
-- ==== Proof.KernelIdeal.Steps0.lean ====
/-
  Region 0 (the 2 x 1024 product, grid 2 x 8): the kernel body run whole at one grid point (n, k), in the three
  shapes the coordinate k along the contracted axis gives it.

  The body keeps a 2 x 512 accumulator in its scratch buffer.  With x the point's 2 x 8192 block of the flattened
  input and w its 512 x 8192 block of the selection matrix, one pass replaces the accumulator s by
  s + x * w^T (`step0 x w s`).  At k = 0 the accumulator is first set to the zero block (`zero0`), so the pass
  leaves step0 x w zero0; at 0 < k < 7 it leaves step0 x w s over what the point before left; at k = 7 it does the
  same and then copies the accumulator into the output window's buffer.  At k < 7 the output buffer is not touched.
-/
import proofs.«181708_j32916629357225_1_alg».proof.Proof.Gen.KernelIdeal.Launch
import proofs.«181708_j32916629357225_1_alg».proof.Proof.Gen.KernelIdeal.Skeleton
import proofs.«181708_j32916629357225_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«181708_j32916629357225_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open WholeStore (origin2 read_one_store read_two_stores)

variable {F : FTy → Type} [FloatOps F]

local notation "𝕄" => MT nD τ sig Unit (Elt F) ℕ (UR sig nD τ) ℕ

/-! ## The coordinate along the contracted axis, in closed form over the grid -/

/-- The body's first branch: k = 0 (the accumulator is reset). -/
abbrev isFirst0 (i : grid0.Coords) : Prop := (Scalar.cmpi .ne (Scalar.extui (Scalar.cmpi .eq (BitVec.ofNat 32 (i 1).val) 0#32)) 0#32) = 1#1
/-- The body's last branch: k = 7 (the accumulator is copied out). -/
abbrev isLast0 (i : grid0.Coords) : Prop := k0_cond2 i = 1#1

/-- Point t = 8 n + k has k = 0 exactly when t is a multiple of 8. -/
theorem isFirst0_iff : ∀ t : Fin cfg0.N, isFirst0 (grid0.coords t) ↔ t.val % 8 = 0 :=
  (by decide +kernel : ∀ t : Fin grid0.N, isFirst0 (grid0.coords t) ↔ t.val % 8 = 0)
/-- Point t = 8 n + k has k = 7 exactly when t is 7 modulo 8. -/
theorem isLast0_iff : ∀ t : Fin cfg0.N, isLast0 (grid0.coords t) ↔ t.val % 8 = 7 :=
  (by decide +kernel : ∀ t : Fin grid0.N, isLast0 (grid0.coords t) ↔ t.val % 8 = 7)

/-- At k < 7 the output window is idle: the body stores nothing into it, -/
theorem idle0_out : ∀ t : Fin cfg0.N, ¬ isLast0 (grid0.coords t) → cfg0.idle 2 (grid0.coords t) = true := by decide +kernel
/-- and the pipeline does not write its block back there. -/
theorem noFlush0_out : ∀ t : Fin cfg0.N, ¬ isLast0 (grid0.coords t) → (cfg0.win 2).flush t = false := by decide +kernel
/-- At k = 7 the output window is live. -/
theorem live0_out : ∀ t : Fin cfg0.N, isLast0 (grid0.coords t) → cfg0.idle 2 (grid0.coords t) = false := by decide +kernel
/-- The two input windows are never idle. -/
theorem live0_x : ∀ t : Fin cfg0.N, cfg0.idle 0 (grid0.coords t) = false := by decide +kernel
theorem live0_w : ∀ t : Fin cfg0.N, cfg0.idle 1 (grid0.coords t) = false := by decide +kernel

/-! ## One pass of the accumulator -/

/-- The zero block the accumulator is reset to. -/
abbrev zero0 : Vec F S2x512 .f32 := k0_pay1 (F := F)
/-- One pass: the accumulator s becomes s + x * w^T. -/
abbrev step0 (x : Vec F S2x8192 .f32) (w : Vec F S512x8192 .f32) (s : Vec F S2x512 .f32) : Vec F S2x512 .f32 := k0_pay2 x w s

/-! ## The body at a point with 0 < k < 7 -/

/-- The inputs' buffers at x and w, the output's at o, the accumulator at s: the body runs to the inputs and the
    output as they were and the accumulator at step0 x w s. -/
theorem run0_mid (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst0 i) (hl : ¬ isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step0 x w s)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 0 -/

/-- The accumulator at anything: the body resets it and runs one pass, leaving step0 x w zero0. -/
theorem run0_first (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : isFirst0 i) (hl : ¬ isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step0 x w zero0)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_two_stores _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 7 -/

/-- The pass as at 0 < k < 7, and then the accumulator copied into the output's buffer. -/
theorem run0_last (c : Dev nD) (i : grid0.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst0 i) (hl : isLast0 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare (step0 x w s) ∗ owns (c : Thread nD τ) arg5 fullShare (step0 x w s)) -∗ K ⟨⟩))
      ⊢ wp frame (wpE (defs₀ (F := F)) Variants.none c none) E (cc0__downsample_kernel i arg2 harg2 arg3 harg3 arg4 harg4 arg5 harg5) K := by
  simp only [cc0__downsample_kernel_eq_skeleton]; unfold cc0__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_one_store _ _ origin2]
    simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

end Cert.KernelIdeal.Hand

end
-- ==== Proof.KernelIdeal.Rest0.lean ====
/-
  Region 0's scoped buffers that no window stages: its accumulator's buffer, and the seven buffers that belong to
  the other region (which region 0 never touches).  What the pipeline hands a region with no protocol of its own is
  these at anything, beside the generator register.
-/
import proofs.«181708_j32916629357225_1_alg».proof.Proof.Gen.KernelIdeal.Launch
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The accumulator's buffer. -/
abbrev scr0 : Memref sig .tc .vmem S2x512 .f32 := Memref.whole cc0_scratch0

/-- The other region's staging buffers and scratch, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the pipeline hands the region: the accumulator's buffer at anything, the other scoped buffers, the
    generator register. -/
theorem PhiA0_eq (c : Dev nD) :
    (Pipeline.ΦA spec0 c : sProp 𝕄) = iprop(((∃ d, owns (c : Thread nD τ) scr0 fullShare d) ∗ others0 c) ∗ (∃ r, prngReg c r)) := by
  unfold Pipeline.ΦA others0; rw [scopedRest0_eq]; simp only [scr0, owns_whole]; rfl

end Cert.KernelIdeal.Hand

end
-- ==== Proof.KernelIdeal.Data0.lean ====
/-
  Region 0 (the 2 x 1024 product, grid 2 x 8), run over its 16 grid points: what the accumulator holds after each
  point, the region's invariant, and the body's obligation to the pipeline at every point.

  Point t = 8 n + k reads block k of the flattened input (x_t) and block (n, k) of the selection matrix (w_t).
  After point t the accumulator holds acc0 t = step0 x_t w_t (prev), where prev is the zero block when k = 0 and
  acc0 (t - 1) otherwise: the partial product over the first k + 1 blocks of the contracted axis.  At k = 7 the
  output window's buffer holds the same, and the pipeline writes it back as block n of the 2 x 1024 result.
  Between points the region owns its scratch buffer at acc0 of the point before (at anything before the first
  point), the other scoped buffers at anything, and the generator register.
-/
import proofs.«181708_j32916629357225_1_alg».proof.Proof.KernelIdeal.Steps0
import proofs.«181708_j32916629357225_1_alg».proof.Proof.KernelIdeal.Rest0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered: a parameter, fixed when the regions are put in sequence
variable (V : (c : Dev nD) → (b : Ref sig .tc) → Buf (Elt F) ((c : Thread nD τ).loc b))

/-! ## The blocks the points read -/

/-- Window w's block at point t, of the arrays as the region finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The flattened input's window is fetched at every point, so its buffer holds the point's block, -/
theorem before0_x {c : Dev nD} (dat : Dat τ (Elt F) Unit ℕ (UR sig nD τ) ℕ cfg0 c) (hA : dat.A 0 = V c (Pipeline.arrRef spec0 0))
    (t : Fin cfg0.N) (d) : dat.before 0 t d = blk0 V c 0 t :=
  (dat.before_fetched 0 t (fetch0_0 t) d).trans (by unfold Dat.fetched Dat.blockOf blk0; rw [hA]; rfl)

/-- and so does the selection matrix's. -/
theorem before0_w {c : Dev nD} (dat : Dat τ (Elt F) Unit ℕ (UR sig nD τ) ℕ cfg0 c) (hA : dat.A 1 = V c (Pipeline.arrRef spec0 1))
    (t : Fin cfg0.N) (d) : dat.before 1 t d = blk0 V c 1 t :=
  (dat.before_fetched 1 t (fetch0_1 t) d).trans (by unfold Dat.fetched Dat.blockOf blk0; rw [hA]; rfl)

/-! ## The accumulator after each point -/

/-- What the accumulator holds after point n: one pass over the zero block when n is a multiple of 8 (k = 0), over
    what point n - 1 left otherwise. -/
def acc0 (c : Dev nD) : (n : ℕ) → n < cfg0.N → Vec F S2x512 .f32
  | 0, h => step0 (blk0 V c 0 ⟨0, h⟩) (blk0 V c 1 ⟨0, h⟩) zero0
  | n + 1, h => step0 (blk0 V c 0 ⟨n + 1, h⟩) (blk0 V c 1 ⟨n + 1, h⟩) (if (n + 1) % 8 = 0 then zero0 else acc0 c n (Nat.lt_of_succ_lt h))

/-- At k = 0 the pass starts from zero. -/
theorem acc0_reset (c : Dev nD) (t : Fin cfg0.N) (h : t.val % 8 = 0) :
    acc0 V c t.val t.isLt = step0 (blk0 V c 0 t) (blk0 V c 1 t) zero0 := by
  obtain ⟨n, hn⟩ := t
  cases n with
  | zero => rfl
  | succ n => exact congrArg (step0 _ _) (if_pos h)

/-- At k > 0 it starts from what the point before left. -/
theorem acc0_next (c : Dev nD) (t : Fin cfg0.N) (h : ¬ t.val % 8 = 0) :
    acc0 V c t.val t.isLt = step0 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact congrArg (step0 _ _) (if_neg h)

/-! ## The region's invariant -/

/-- The invariant before position n: before the first point what the pipeline hands over; after point n - 1 the
    accumulator at acc0 (n - 1). -/
def Phi0 (c : Dev nD) : (n : ℕ) → n ≤ cfg0.N → sProp 𝕄
  | 0, _ => Pipeline.ΦA spec0 c
  | n + 1, hn => iprop((owns (c : Thread nD τ) scr0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scr0 fullShare (acc0 V c n hn) ∗ others0 c) ∗ (∃ r, prngReg c r)) := rfl

theorem Phi0_pos (c : Dev nD) (n : ℕ) (h : n ≤ cfg0.N) (hz : n ≠ 0) :
    Phi0 V c n h = iprop((owns (c : Thread nD τ) scr0 fullShare (acc0 V c (n - 1) (by omega)) ∗ others0 c) ∗ (∃ r, prngReg c r)) := by
  cases n with
  | zero => exact absurd rfl hz
  | succ n => rfl

/-! ## The pipeline's proof data -/

/-- The arrays as the region finds them; after the body at point t the inputs' buffers at their blocks and the
    output's at the accumulator (consulted only at k = 7, where the body stores it); the invariant above; nothing
    owed to other cores; every array held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := Phi0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem after0_x (c : Dev nD) (t : Fin cfg0.N) : (dat0 V c).after 0 t = blk0 V c 0 t := by dsimp only [dat0]
theorem after0_w (c : Dev nD) (t : Fin cfg0.N) : (dat0 V c).after 1 t = blk0 V c 1 t := by dsimp only [dat0]
theorem after0_out (c : Dev nD) (t : Fin cfg0.N) : (dat0 V c).after 2 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem found0_x (c : Dev nD) (t : Fin cfg0.N) (d) : (dat0 V c).before 0 t d = blk0 V c 0 t :=
  before0_x V (dat0 V c) (A0_eq V c 0) t d
theorem found0_w (c : Dev nD) (t : Fin cfg0.N) (d) : (dat0 V c).before 1 t d = blk0 V c 1 t :=
  before0_w V (dat0 V c) (A0_eq V c 1) t d

/-! ## The body's obligation at a point -/

/-- What the body is called with at point t: the invariant, nothing owed, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at point t, by the value of k = t mod 8: at k = 7 the pass and the copy to the output; at k = 0 the reset
    and the pass (the accumulator found at anything before the very first point, at the previous block row's total
    otherwise); at 0 < k < 7 the pass alone.  At k < 7 the output's buffer goes back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_x, found0_w]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_x t], after0_x]
  rw [show (dat0 V c).leavesExact 1 t = owns (c : Thread nD τ) (st0_1 t) fullShare ((dat0 V c).after 1 t) from by
    unfold Dat.leavesExact; rw [live0_w t], after0_w]
  by_cases hl : t.val % 8 = 7
  · have hnf : ¬ t.val % 8 = 0 := by omega
    have hz : t.val ≠ 0 := by omega
    rw [show (dat0 V c).leavesExact 2 t = owns (c : Thread nD τ) (st0_2 t) fullShare ((dat0 V c).after 2 t) from by
      unfold Dat.leavesExact; rw [live0_out t ((isLast0_iff t).mpr hl)], after0_out]
    rw [acc0_next V c t hnf, Phi0_castSucc V c t, Phi0_pos V c _ _ hz]
    iintro ⟨⟨⟨HS, HR⟩, Hg⟩, Ho, ⟨%d0, H0⟩, ⟨%d1, H1⟩, ⟨%d2, H2⟩⟩
    iapply (run0_last c (grid0.coords t) _ _ _ _ _ _ _ _ (fun h => hnf ((isFirst0_iff t).mp h)) ((isLast0_iff t).mpr hl) (blk0 V c 0 t) (blk0 V c 1 t) _ _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hnl : ¬ isLast0 (grid0.coords t) := fun h => hl ((isLast0_iff t).mp h)
    rw [Dat.leavesExact_idle (dat0 V c) 2 t (idle0_out t hnl) (noFlush0_out t hnl)]
    by_cases hf : t.val % 8 = 0
    · rw [acc0_reset V c t hf]
      by_cases hz : t.val = 0
      · rw [Phi0_castSucc V c t, Phi0_zero V c _ _ hz, PhiA0_eq]
        iintro ⟨⟨⟨⟨%s, HS⟩, HR⟩, Hg⟩, Ho, ⟨%d0, H0⟩, ⟨%d1, H1⟩, ⟨%d2, H2⟩⟩
        iapply (run0_first c (grid0.coords t) _ _ _ _ _ _ _ _ ((isFirst0_iff t).mpr hf) hnl (blk0 V c 0 t) (blk0 V c 1 t) _ s Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi0_castSucc V c t, Phi0_pos V c _ _ hz]
        iintro ⟨⟨⟨HS, HR⟩, Hg⟩, Ho, ⟨%d0, H0⟩, ⟨%d1, H1⟩, ⟨%d2, H2⟩⟩
        iapply (run0_first c (grid0.coords t) _ _ _ _ _ _ _ _ ((isFirst0_iff t).mpr hf) hnl (blk0 V c 0 t) (blk0 V c 1 t) _ _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => hf (by rw [h])
      rw [acc0_next V c t hf, Phi0_castSucc V c t, Phi0_pos V c _ _ hz]
      iintro ⟨⟨⟨HS, HR⟩, Hg⟩, Ho, ⟨%d0, H0⟩, ⟨%d1, H1⟩, ⟨%d2, H2⟩⟩
      iapply (run0_mid c (grid0.coords t) _ _ _ _ _ _ _ _ (fun h => hf ((isFirst0_iff t).mp h)) hnl (blk0 V c 0 t) (blk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the pipeline hands over is the invariant before the first point. -/
theorem Phi0_in (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back: the accumulator's contents are forgotten. -/
theorem Phi0_out (c : Dev nD) : (dat0 V c).Φ (Fin.last cfg0.N) ⊢ Pipeline.ΦA spec0 c := by
  rw [show (dat0 V c).Φ (Fin.last cfg0.N) = Phi0 V c cfg0.N (Nat.le_refl _) from rfl,
    Phi0_pos V c _ _ (by have : cfg0.N = 16 := N_0; omega), PhiA0_eq]
  iintro ⟨⟨HS, HR⟩, Hg⟩
  isplitl [HS HR]
  · isplitl [HS]; · iexists _; iexact HS
    iexact HR
  iexact Hg

end Cert.KernelIdeal.Hand

end
-- ==== Proof.KernelIdeal.Steps1.lean ====
/-
  Region 1 (the 2 x 4096 product, grid 8 x 8): the kernel body run whole at one grid point (n, k), in the three
  shapes the coordinate k along the contracted axis gives it.

  The body keeps a 2 x 512 accumulator in its scratch buffer.  With x the point's 2 x 8192 block of the flattened
  input and w its 512 x 8192 block of the selection matrix, one pass replaces the accumulator s by
  s + x * w^T (`step1 x w s`).  At k = 0 the accumulator is first set to the zero block (`zero1`), so the pass
  leaves step1 x w zero1; at 0 < k < 7 it leaves step1 x w s over what the point before left; at k = 7 it does the
  same and then copies the accumulator into the output window's buffer.  At k < 7 the output buffer is not touched.
-/
import proofs.«181708_j32916629357225_1_alg».proof.Proof.Gen.KernelIdeal.Launch
import proofs.«181708_j32916629357225_1_alg».proof.Proof.Gen.KernelIdeal.Skeleton
import proofs.«181708_j32916629357225_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«181708_j32916629357225_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open WholeStore (origin2 read_one_store read_two_stores)

variable {F : FTy → Type} [FloatOps F]

local notation "𝕄" => MT nD τ sig Unit (Elt F) ℕ (UR sig nD τ) ℕ

/-! ## The coordinate along the contracted axis, in closed form over the grid -/

/-- The body's first branch: k = 0 (the accumulator is reset). -/
abbrev isFirst1 (i : grid1.Coords) : Prop := (Scalar.cmpi .ne (Scalar.extui (Scalar.cmpi .eq (BitVec.ofNat 32 (i 1).val) 0#32)) 0#32) = 1#1
/-- The body's last branch: k = 7 (the accumulator is copied out). -/
abbrev isLast1 (i : grid1.Coords) : Prop := k1_cond2 i = 1#1

/-- Point t = 8 n + k has k = 0 exactly when t is a multiple of 8. -/
theorem isFirst1_iff : ∀ t : Fin cfg1.N, isFirst1 (grid1.coords t) ↔ t.val % 8 = 0 :=
  (by decide +kernel : ∀ t : Fin grid1.N, isFirst1 (grid1.coords t) ↔ t.val % 8 = 0)
/-- Point t = 8 n + k has k = 7 exactly when t is 7 modulo 8. -/
theorem isLast1_iff : ∀ t : Fin cfg1.N, isLast1 (grid1.coords t) ↔ t.val % 8 = 7 :=
  (by decide +kernel : ∀ t : Fin grid1.N, isLast1 (grid1.coords t) ↔ t.val % 8 = 7)

/-- At k < 7 the output window is idle: the body stores nothing into it, -/
theorem idle1_out : ∀ t : Fin cfg1.N, ¬ isLast1 (grid1.coords t) → cfg1.idle 2 (grid1.coords t) = true := by decide +kernel
/-- and the pipeline does not write its block back there. -/
theorem noFlush1_out : ∀ t : Fin cfg1.N, ¬ isLast1 (grid1.coords t) → (cfg1.win 2).flush t = false := by decide +kernel
/-- At k = 7 the output window is live. -/
theorem live1_out : ∀ t : Fin cfg1.N, isLast1 (grid1.coords t) → cfg1.idle 2 (grid1.coords t) = false := by decide +kernel
/-- The two input windows are never idle. -/
theorem live1_x : ∀ t : Fin cfg1.N, cfg1.idle 0 (grid1.coords t) = false := by decide +kernel
theorem live1_w : ∀ t : Fin cfg1.N, cfg1.idle 1 (grid1.coords t) = false := by decide +kernel

/-! ## One pass of the accumulator -/

/-- The zero block the accumulator is reset to. -/
abbrev zero1 : Vec F S2x512 .f32 := k1_pay1 (F := F)
/-- One pass: the accumulator s becomes s + x * w^T. -/
abbrev step1 (x : Vec F S2x8192 .f32) (w : Vec F S512x8192 .f32) (s : Vec F S2x512 .f32) : Vec F S2x512 .f32 := k1_pay2 x w s

/-! ## The body at a point with 0 < k < 7 -/

/-- The inputs' buffers at x and w, the output's at o, the accumulator at s: the body runs to the inputs and the
    output as they were and the accumulator at step1 x w s. -/
theorem run1_mid (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst1 i) (hl : ¬ isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step1 x w s)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 0 -/

/-- The accumulator at anything: the body resets it and runs one pass, leaving step1 x w zero1. -/
theorem run1_first (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : isFirst1 i) (hl : ¬ isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare o ∗ owns (c : Thread nD τ) arg5 fullShare (step1 x w zero1)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  sl_unfold_words
  rw [read_two_stores _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

/-! ## The body at a point with k = 7 -/

/-- The pass as at 0 < k < 7, and then the accumulator copied into the output's buffer. -/
theorem run1_last (c : Dev nD) (i : grid1.Coords) (arg2 : Memref sig .tc .vmem S2x8192 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole)
    (hf : ¬ isFirst1 i) (hl : isLast1 i)
    (x : Vec F S2x8192 .f32) (w : Vec F S512x8192 .f32) (o : Vec F S2x512 .f32) (s : Vec F S2x512 .f32) (E : Set ℕ) (K : PUnit → sProp 𝕄) :
    iprop(owns (c : Thread nD τ) arg2 fullShare x ∗ owns (c : Thread nD τ) arg3 fullShare w ∗ owns (c : Thread nD τ) arg4 fullShare o ∗ owns (c : Thread nD τ) arg5 fullShare s
        ∗ (iprop(owns (c : Thread nD τ) arg2 fullShare x ∗ owns (c : Thread nD τ) arg3 fullShare w ∗ owns (c : Thread nD τ) arg4 fullShare (step1 x w s) ∗ owns (c : Thread nD τ) arg5 fullShare (step1 x w s)) -∗ K ⟨⟩))
      ⊢ wp frame (wpE (defs₀ (F := F)) Variants.none c none) E (cc1__downsample_kernel i arg2 harg2 arg3 harg3 arg4 harg4 arg5 harg5) K := by
  simp only [cc1__downsample_kernel_eq_skeleton]; unfold cc1__downsample_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_one_store _ _ origin2]
    simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]
  iexists _; isplitr
  swap; · iexact H5
  ipureintro
  sl_unfold_words
  rw [read_one_store _ _ origin2]
  simp only [View.readCov_unit_zero (S := S2x512) _ origin2, View.readAt_eq_ld, harg2.read_unread, harg3.read_unread, harg5.read_unread, View.ld_unit_zero (S := S2x8192) origin2, View.ld_unit_zero (S := S512x8192) origin2, View.ld_unit_zero (S := S2x512) origin2]

end Cert.KernelIdeal.Hand

end
-- ==== Proof.KernelIdeal.Rest1.lean ====
/-
  Region 1's scoped buffers that no window stages: its accumulator's buffer, and the seven buffers that belong to
  the other region (which region 1 never touches).  What the pipeline hands a region with no protocol of its own is
  these at anything, beside the generator register.
-/
import proofs.«181708_j32916629357225_1_alg».proof.Proof.Gen.KernelIdeal.Launch
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The accumulator's buffer. -/
abbrev scr1 : Memref sig .tc .vmem S2x512 .f32 := Memref.whole cc1_scratch0

/-- The other region's staging buffers and scratch, each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Nine separate resources, the eighth moved to the front. -/
theorem rotate_last (P0 P1 P2 P3 P4 P5 P6 S G : sProp 𝕄) :
    iprop((P0 ∗ P1 ∗ P2 ∗ P3 ∗ P4 ∗ P5 ∗ P6 ∗ S) ∗ G) = iprop((S ∗ P0 ∗ P1 ∗ P2 ∗ P3 ∗ P4 ∗ P5 ∗ P6) ∗ G) := by
  have h1 : iprop((P0 ∗ P1 ∗ P2 ∗ P3 ∗ P4 ∗ P5 ∗ P6 ∗ S) ∗ G) ⊢ iprop((S ∗ P0 ∗ P1 ∗ P2 ∗ P3 ∗ P4 ∗ P5 ∗ P6) ∗ G) := by
    iintro ⟨⟨H0, H1, H2, H3, H4, H5, H6, HS⟩, Hg⟩
    isplitl [H0 H1 H2 H3 H4 H5 H6 HS]
    · isplitl [HS]; · iexact HS
      isplitl [H0]; · iexact H0
      isplitl [H1]; · iexact H1
      isplitl [H2]; · iexact H2
      isplitl [H3]; · iexact H3
      isplitl [H4]; · iexact H4
      isplitl [H5]; · iexact H5
      iexact H6
    iexact Hg
  have h2 : iprop((S ∗ P0 ∗ P1 ∗ P2 ∗ P3 ∗ P4 ∗ P5 ∗ P6) ∗ G) ⊢ iprop((P0 ∗ P1 ∗ P2 ∗ P3 ∗ P4 ∗ P5 ∗ P6 ∗ S) ∗ G) := by
    iintro ⟨⟨HS, H0, H1, H2, H3, H4, H5, H6⟩, Hg⟩
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact Hg
  exact equiv_iff.mp ⟨h1, h2⟩

/-- What the pipeline hands the region: the accumulator's buffer at anything, the other scoped buffers, the
    generator register.  (The pipeline lists the accumulator's buffer last.) -/
theorem PhiA1_eq (c : Dev nD) :
    (Pipeline.ΦA spec1 c : sProp 𝕄) = iprop(((∃ d, owns (c : Thread nD τ) scr1 fullShare d) ∗ others1 c) ∗ (∃ r, prngReg c r)) := by
  unfold Pipeline.ΦA others1; rw [scopedRest1_eq]; simp only [scr1, owns_whole]
  exact rotate_last _ _ _ _ _ _ _ _ _

end Cert.KernelIdeal.Hand

end
-- ==== Proof.KernelIdeal.Data1.lean ====
/-
  Region 1 (the 2 x 4096 product, grid 8 x 8), run over its 64 grid points: what the accumulator holds after each
  point, the region's invariant, and the body's obligation to the pipeline at every point.

  Point t = 8 n + k reads block k of the flattened input (x_t) and block (n, k) of the selection matrix (w_t).
  After point t the accumulator holds acc1 t = step1 x_t w_t (prev), where prev is the zero block when k = 0 and
  acc1 (t - 1) otherwise: the partial product over the first k + 1 blocks of the contracted axis.  At k = 7 the
  output window's buffer holds the same, and the pipeline writes it back as block n of the 2 x 4096 result.
  Between points the region owns its scratch buffer at acc1 of the point before (at anything before the first
  point), the other scoped buffers at anything, and the generator register.
-/
import proofs.«181708_j32916629357225_1_alg».proof.Proof.KernelIdeal.Steps1
import proofs.«181708_j32916629357225_1_alg».proof.Proof.KernelIdeal.Rest1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered: a parameter, fixed when the regions are put in sequence
variable (V : (c : Dev nD) → (b : Ref sig .tc) → Buf (Elt F) ((c : Thread nD τ).loc b))

/-! ## The blocks the points read -/

/-- Window w's block at point t, of the arrays as the region finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The flattened input's window is fetched at every point, so its buffer holds the point's block, -/
theorem before1_x {c : Dev nD} (dat : Dat τ (Elt F) Unit ℕ (UR sig nD τ) ℕ cfg1 c) (hA : dat.A 0 = V c (Pipeline.arrRef spec1 0))
    (t : Fin cfg1.N) (d) : dat.before 0 t d = blk1 V c 0 t :=
  (dat.before_fetched 0 t (fetch1_0 t) d).trans (by unfold Dat.fetched Dat.blockOf blk1; rw [hA]; rfl)

/-- and so does the selection matrix's. -/
theorem before1_w {c : Dev nD} (dat : Dat τ (Elt F) Unit ℕ (UR sig nD τ) ℕ cfg1 c) (hA : dat.A 1 = V c (Pipeline.arrRef spec1 1))
    (t : Fin cfg1.N) (d) : dat.before 1 t d = blk1 V c 1 t :=
  (dat.before_fetched 1 t (fetch1_1 t) d).trans (by unfold Dat.fetched Dat.blockOf blk1; rw [hA]; rfl)

/-! ## The accumulator after each point -/

/-- What the accumulator holds after point n: one pass over the zero block when n is a multiple of 8 (k = 0), over
    what point n - 1 left otherwise. -/
def acc1 (c : Dev nD) : (n : ℕ) → n < cfg1.N → Vec F S2x512 .f32
  | 0, h => step1 (blk1 V c 0 ⟨0, h⟩) (blk1 V c 1 ⟨0, h⟩) zero1
  | n + 1, h => step1 (blk1 V c 0 ⟨n + 1, h⟩) (blk1 V c 1 ⟨n + 1, h⟩) (if (n + 1) % 8 = 0 then zero1 else acc1 c n (Nat.lt_of_succ_lt h))

/-- At k = 0 the pass starts from zero. -/
theorem acc1_reset (c : Dev nD) (t : Fin cfg1.N) (h : t.val % 8 = 0) :
    acc1 V c t.val t.isLt = step1 (blk1 V c 0 t) (blk1 V c 1 t) zero1 := by
  obtain ⟨n, hn⟩ := t
  cases n with
  | zero => rfl
  | succ n => exact congrArg (step1 _ _) (if_pos h)

/-- At k > 0 it starts from what the point before left. -/
theorem acc1_next (c : Dev nD) (t : Fin cfg1.N) (h : ¬ t.val % 8 = 0) :
    acc1 V c t.val t.isLt = step1 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact congrArg (step1 _ _) (if_neg h)

/-! ## The region's invariant -/

/-- The invariant before position n: before the first point what the pipeline hands over; after point n - 1 the
    accumulator at acc1 (n - 1). -/
def Phi1 (c : Dev nD) : (n : ℕ) → n ≤ cfg1.N → sProp 𝕄
  | 0, _ => Pipeline.ΦA spec1 c
  | n + 1, hn => iprop((owns (c : Thread nD τ) scr1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop((owns (c : Thread nD τ) scr1 fullShare (acc1 V c n hn) ∗ others1 c) ∗ (∃ r, prngReg c r)) := rfl

theorem Phi1_pos (c : Dev nD) (n : ℕ) (h : n ≤ cfg1.N) (hz : n ≠ 0) :
    Phi1 V c n h = iprop((owns (c : Thread nD τ) scr1 fullShare (acc1 V c (n - 1) (by omega)) ∗ others1 c) ∗ (∃ r, prngReg c r)) := by
  cases n with
  | zero => exact absurd rfl hz
  | succ n => rfl

/-! ## The pipeline's proof data -/

/-- The arrays as the region finds them; after the body at point t the inputs' buffers at their blocks and the
    output's at the accumulator (consulted only at k = 7, where the body stores it); the invariant above; nothing
    owed to other cores; every array held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := Phi1 V c t.val (Nat.le_of_lt_succ t.isLt)
  q _ := fullShare
  owed _ := 0

theorem A1_eq (c : Dev nD) (w : Fin cfg1.W) : (dat1 V c).A w = V c (Pipeline.arrRef spec1 w) := by
  dsimp only [dat1]

theorem after1_x (c : Dev nD) (t : Fin cfg1.N) : (dat1 V c).after 0 t = blk1 V c 0 t := by dsimp only [dat1]
theorem after1_w (c : Dev nD) (t : Fin cfg1.N) : (dat1 V c).after 1 t = blk1 V c 1 t := by dsimp only [dat1]
theorem after1_out (c : Dev nD) (t : Fin cfg1.N) : (dat1 V c).after 2 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem found1_x (c : Dev nD) (t : Fin cfg1.N) (d) : (dat1 V c).before 0 t d = blk1 V c 0 t :=
  before1_x V (dat1 V c) (A1_eq V c 0) t d
theorem found1_w (c : Dev nD) (t : Fin cfg1.N) (d) : (dat1 V c).before 1 t d = blk1 V c 1 t :=
  before1_w V (dat1 V c) (A1_eq V c 1) t d

/-! ## The body's obligation at a point -/

/-- What the body is called with at point t: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at point t, by the value of k = t mod 8: at k = 7 the pass and the copy to the output; at k = 0 the reset
    and the pass (the accumulator found at anything before the very first point, at the previous block row's total
    otherwise); at 0 < k < 7 the pass alone.  At k < 7 the output's buffer goes back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_x, found1_w]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_x t], after1_x]
  rw [show (dat1 V c).leavesExact 1 t = owns (c : Thread nD τ) (st1_1 t) fullShare ((dat1 V c).after 1 t) from by
    unfold Dat.leavesExact; rw [live1_w t], after1_w]
  by_cases hl : t.val % 8 = 7
  · have hnf : ¬ t.val % 8 = 0 := by omega
    have hz : t.val ≠ 0 := by omega
    rw [show (dat1 V c).leavesExact 2 t = owns (c : Thread nD τ) (st1_2 t) fullShare ((dat1 V c).after 2 t) from by
      unfold Dat.leavesExact; rw [live1_out t ((isLast1_iff t).mpr hl)], after1_out]
    rw [acc1_next V c t hnf, Phi1_castSucc V c t, Phi1_pos V c _ _ hz]
    iintro ⟨⟨⟨HS, HR⟩, Hg⟩, Ho, ⟨%d0, H0⟩, ⟨%d1, H1⟩, ⟨%d2, H2⟩⟩
    iapply (run1_last c (grid1.coords t) _ _ _ _ _ _ _ _ (fun h => hnf ((isFirst1_iff t).mp h)) ((isLast1_iff t).mpr hl) (blk1 V c 0 t) (blk1 V c 1 t) _ _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hnl : ¬ isLast1 (grid1.coords t) := fun h => hl ((isLast1_iff t).mp h)
    rw [Dat.leavesExact_idle (dat1 V c) 2 t (idle1_out t hnl) (noFlush1_out t hnl)]
    by_cases hf : t.val % 8 = 0
    · rw [acc1_reset V c t hf]
      by_cases hz : t.val = 0
      · rw [Phi1_castSucc V c t, Phi1_zero V c _ _ hz, PhiA1_eq]
        iintro ⟨⟨⟨⟨%s, HS⟩, HR⟩, Hg⟩, Ho, ⟨%d0, H0⟩, ⟨%d1, H1⟩, ⟨%d2, H2⟩⟩
        iapply (run1_first c (grid1.coords t) _ _ _ _ _ _ _ _ ((isFirst1_iff t).mpr hf) hnl (blk1 V c 0 t) (blk1 V c 1 t) _ s Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi1_castSucc V c t, Phi1_pos V c _ _ hz]
        iintro ⟨⟨⟨HS, HR⟩, Hg⟩, Ho, ⟨%d0, H0⟩, ⟨%d1, H1⟩, ⟨%d2, H2⟩⟩
        iapply (run1_first c (grid1.coords t) _ _ _ _ _ _ _ _ ((isFirst1_iff t).mpr hf) hnl (blk1 V c 0 t) (blk1 V c 1 t) _ _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => hf (by rw [h])
      rw [acc1_next V c t hf, Phi1_castSucc V c t, Phi1_pos V c _ _ hz]
      iintro ⟨⟨⟨HS, HR⟩, Hg⟩, Ho, ⟨%d0, H0⟩, ⟨%d1, H1⟩, ⟨%d2, H2⟩⟩
      iapply (run1_mid c (grid1.coords t) _ _ _ _ _ _ _ _ (fun h => hf ((isFirst1_iff t).mp h)) hnl (blk1 V c 0 t) (blk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the pipeline hands over is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back: the accumulator's contents are forgotten. -/
theorem Phi1_out (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by have : cfg1.N = 64 := N_1; omega), PhiA1_eq]
  iintro ⟨⟨HS, HR⟩, Hg⟩
  isplitl [HS HR]
  · isplitl [HS]; · iexists _; iexact HS
    iexact HR
  iexact Hg

end Cert.KernelIdeal.Hand

end
-- ==== Proof.KernelIdeal.Regions.lean ====
/-
  The whole program, in order: flatten the input; region 0 (the 2 x 1024 product); reshape its result; region 1 (the
  2 x 4096 product); reshape its result.

  Between two items the core holds every unscoped buffer at known contents.  A reshape leaves them as the host
  operation computes; a region changes only its result array, which ends at what the pipeline's write-backs of the
  accumulated blocks leave (the fold `Dat.arrAt` of the region's data); everything else, the three arguments
  included, stays as it was.  Each region is entered from the contents the item before it left, hands its scoped
  buffers and the generator register to its invariant, and gives them back at its end.  From the launch to the
  return every execution terminates, and the final memory holds each unscoped buffer at the last contents.
-/
import proofs.«181708_j32916629357225_1_alg».proof.Proof.KernelIdeal.Data0
import proofs.«181708_j32916629357225_1_alg».proof.Proof.KernelIdeal.Data1
import proofs.«181708_j32916629357225_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' ends -/

/-- What region 0 is entered with: the launch contents after the flattening reshape. -/
abbrev entry0 : (c : Dev nD) → (b : Ref sig .tc) → Buf (Elt F) ((c : Thread nD τ).loc b) := fun c b => Gen.V1 m c b

/-- After region 0: its arrays at what its write-backs leave, every other buffer as entered. -/
def W2 (c : Dev nD) : Valuation τ sig (Elt F) :=
  Pipeline.withArrays spec0 c (Gen.V1 m c) fun w => (dat0 (entry0 m) c).arrAt w cfg0.N

/-- Region 0's result array, as the later items read it. -/
def outs0 : Gen.Outs (F := F) := fun _ r c => W2 m c r

/-- What region 1 is entered with: that, after the first result's reshape. -/
abbrev entry1 : (c : Dev nD) → (b : Ref sig .tc) → Buf (Elt F) ((c : Thread nD τ).loc b) := fun c b => Gen.V3 m (outs0 m) c b

/-- After region 1: its arrays at what its write-backs leave, every other buffer as entered. -/
def W4 (c : Dev nD) : Valuation τ sig (Elt F) :=
  Pipeline.withArrays spec1 c (Gen.V3 m (outs0 m) c) fun w => (dat1 (entry1 m) c).arrAt w cfg1.N

/-- Both regions' result arrays, by the item they follow. -/
def outs : Gen.Outs (F := F) := fun J r c => if J = 2 then W2 m c r else W4 m c r

theorem outs_two (r : Ref sig .tc) (c : Dev nD) : outs m 2 r c = W2 m c r := if_pos rfl
theorem outs_four (r : Ref sig .tc) (c : Dev nD) : outs m 4 r c = W4 m c r := if_neg (by decide)

/-- Region 1 is entered with the same contents whichever of the two tables names region 0's result. -/
theorem V2_outs (c : Dev nD) : Gen.V2 m (outs m) c = Gen.V2 m (outs0 m) c := by
  unfold Gen.V2; rw [outs_two]; rfl
theorem V3_outs (c : Dev nD) : Gen.V3 m (outs m) c = Gen.V3 m (outs0 m) c := by
  unfold Gen.V3; rw [V2_outs]

theorem W2_arr (c : Dev nD) (w : Fin cfg0.W) :
    W2 m c (Proc.devRef .tc (Pipeline.arrRef spec0 w)) = (dat0 (entry0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (entry1 m) c).arrAt w cfg1.N := by
  unfold W4; exact Pipeline.withArrays_arr spec1 launch1.win.arr_inj c _ _ w

/-- After region 0 each of its arrays holds what the pipeline leaves: the inputs as entered, the result the fold. -/
theorem hF0 (c : Dev nD) (w : Fin cfg0.W) :
    (dat0 (entry0 m) c).arrAt w cfg0.N = (fun b : Ref sig .tc => Gen.V2 m (outs m) c b) (Pipeline.arrRef spec0 w) := by
  match w with
  | ⟨0, _⟩ => exact ((dat0 (entry0 m) c).arrAt_in 0 rfl _).trans ((A0_eq (entry0 m) c 0).trans (Gen.V2_of m (outs m) c main_v0 (by decide)).symm)
  | ⟨1, _⟩ => exact ((dat0 (entry0 m) c).arrAt_in 1 rfl _).trans ((A0_eq (entry0 m) c 1).trans (Gen.V2_of m (outs m) c main_arg1 (by decide)).symm)
  | ⟨2, _⟩ =>
    show _ = Function.update (Gen.V1 m c) (Proc.devRef .tc main_v1) (outs m 2 main_v1 c) (Proc.devRef .tc main_v1)
    rw [Function.update_self, outs_two]; exact (W2_arr m c 2).symm

/-- Every other buffer is as region 0 found it. -/
theorem hrest0 (c : Dev nD) : ∀ b, b ∉ Finset.univ.image (Pipeline.arrRef spec0) →
    (fun b : Ref sig .tc => Gen.V2 m (outs m) c b) b = entry0 m c b :=
  fun b hb => Gen.V2_of m (outs m) c b (by
    intro h; rw [List.mem_singleton] at h; subst h
    exact hb (Finset.mem_image.mpr ⟨2, Finset.mem_univ _, rfl⟩))

/-- After region 1 each of its arrays holds what the pipeline leaves. -/
theorem hF1 (c : Dev nD) (w : Fin cfg1.W) :
    (dat1 (entry1 m) c).arrAt w cfg1.N = (fun b : Ref sig .tc => Gen.V4 m (outs m) c b) (Pipeline.arrRef spec1 w) := by
  match w with
  | ⟨0, _⟩ => exact ((dat1 (entry1 m) c).arrAt_in 0 rfl _).trans ((A1_eq (entry1 m) c 0).trans ((congrFun (V3_outs m c) _).symm.trans (Gen.V4_of m (outs m) c main_v0 (by decide)).symm))
  | ⟨1, _⟩ => exact ((dat1 (entry1 m) c).arrAt_in 1 rfl _).trans ((A1_eq (entry1 m) c 1).trans ((congrFun (V3_outs m c) _).symm.trans (Gen.V4_of m (outs m) c main_arg2 (by decide)).symm))
  | ⟨2, _⟩ =>
    show _ = Function.update (Gen.V3 m (outs m) c) (Proc.devRef .tc main_v3) (outs m 4 main_v3 c) (Proc.devRef .tc main_v3)
    rw [Function.update_self, outs_four]; exact (W4_arr m c 2).symm

/-- Every other buffer is as region 1 found it. -/
theorem hrest1 (c : Dev nD) : ∀ b, b ∉ Finset.univ.image (Pipeline.arrRef spec1) →
    (fun b : Ref sig .tc => Gen.V4 m (outs m) c b) b = entry1 m c b :=
  fun b hb => (Gen.V4_of m (outs m) c b (by
    intro h; rw [List.mem_singleton] at h; subst h
    exact hb (Finset.mem_image.mpr ⟨2, Finset.mem_univ _, rfl⟩))).trans (congrFun (V3_outs m c) _)

/-! ## The proof data of both regions, and what rides beside the buffers -/

/-- Each region's data at its own entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state, and nothing owed. -/
abbrev side (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers after the flattening, left with its result array at the fold.  Its arrays
    are split out of the unscoped buffers and put back; the generator register goes into the invariant and comes out;
    the region has no semaphore of its own and owes nothing. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V1 m c) ∗ side c)
  post c := iprop(StableHlo.held (c : Thread nD τ) (Pipeline.ucRefs τ sig) (Gen.V2 m (outs m) c) ∗ side c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (entry0 m) c)
    unfold Pipeline.ΦA
    iintro ⟨Hp, -, Hr⟩
    isplitl [Hr]; · iexact Hr
    iexact Hp
  hout c := by
    rw [Pipeline.ownSems0_none]
    refine BIBase.Entails.trans (Phi0_out (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (entry0 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers after the first result's reshape, left with its result array at the fold;
    otherwise as region 0. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (Gen.V3 m (outs m) c) ∗ side c)
  post c := iprop(StableHlo.held (c : Thread nD τ) (Pipeline.ucRefs τ sig) (Gen.V4 m (outs m) c) ∗ side c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (entry1 m) c)
    unfold Pipeline.ΦA
    iintro ⟨Hp, -, Hr⟩
    isplitl [Hr]; · iexact Hr
    iexact Hp
  hout c := by
    rw [Pipeline.ownSems0_none]
    refine BIBase.Entails.trans (Phi1_out (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (entry1 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At the end the generator register stays with the buffers and the (empty) debt stands apart. -/
theorem side_end (c : Dev nD) (X : sProp 𝕄) :
    iprop(X ∗ side c) ⊢ (iprop((X ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, and the final memory
    holds every unscoped buffer at the last contents: the launch contents carried through the three reshapes and the
    two regions. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => side) () (pdats m) (reg0 m) (reg1 m))
    (fun c Q => by
      rewrite [main_chain c, Seg.run_eq_chain,
        show (Gen.segs m (outs m) 𝒱₀ L lv (fun _ => side) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ side c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl, side_end c _⟩)
    (hinit := ?_)
    (QY := fun c s => ∀ b ∈ Pipeline.ucRefs τ sig, s.mem ((c : Thread nD τ).1, b) = Gen.V5 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Gen.V5 m (outs m) c) s')
    isplitl [Hh] <;> iassumption

/-- The frame: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c)⟩) (run_all m ρ)

end Cert.KernelIdeal.Hand

end
-- ==== Proof.Spec.lean ====
/-
  The specification of both results: the product of a matrix with the transpose of another, entry by entry.

  For x of shape M x K and w of shape N x K, (x * w^T)(p, q) is the sum over the shared axis of x(p, i) * w(q, i).
  Both results of the program are this product, of the flattened 2 x 65536 input with a selection matrix.
-/
import Idealize.ShloMosaic.Lib.ValueIdx
import Idealize.ShloMosaic.PureOps.Ideal

noncomputable section

open scoped BigOperators

namespace Downsample

open Idealize.ShloMosaic Idealize.ShloMosaic.ValueIdx

/-- x * w^T, over the extended reals. -/
def prodT {M K N : Nat} (x : (⟨2, ![M, K]⟩ : Shape).Idx → EReal) (w : (⟨2, ![N, K]⟩ : Shape).Idx → EReal) :
    (⟨2, ![M, N]⟩ : Shape).Idx → EReal :=
  fun j => ∑ i : Fin K, x (ix2 (⟨(j 0).val, idx2_lt0 j⟩ : Fin M) i) * w (ix2 (⟨(j 1).val, idx2_lt1 j⟩ : Fin N) i)

/-- Its entry (p, q). -/
theorem prodT_apply {M K N : Nat} (x : (⟨2, ![M, K]⟩ : Shape).Idx → EReal) (w : (⟨2, ![N, K]⟩ : Shape).Idx → EReal)
    (p : Fin M) (q : Fin N) : prodT x w (ix2 p q) = ∑ i : Fin K, x (ix2 p i) * w (ix2 q i) := rfl

end Downsample

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibBlockSum.lean ====
/-
  A sum over B * J consecutive indices, taken block by block.

  Index j of B * J splits uniquely as J * s + i with s below B and i below J, so over any commutative monoid a sum
  over all j is the sum over the blocks s of the sums over the places i inside the block.  Only the order and the
  grouping of the terms change.
-/
import Mathlib.Logic.Equiv.Fin.Basic
import Mathlib.Data.Fintype.BigOperators
import Mathlib.Algebra.BigOperators.Fin
import Mathlib.Algebra.BigOperators.Group.Finset.Basic

open scoped BigOperators

namespace BlockSum

/-- The index of place i in block s. -/
abbrev at_ {B J : Nat} (s : Fin B) (i : Fin J) : Fin (B * J) := finProdFinEquiv (s, i)

/-- Its value: J * s + i. -/
theorem at_val {B J : Nat} (s : Fin B) (i : Fin J) : ((at_ s i : Fin (B * J)) : Nat) = J * s.val + i.val := by
  show i.val + J * s.val = J * s.val + i.val
  exact Nat.add_comm _ _

/-- The sum over all indices is the sum over blocks of the sums inside each block. -/
theorem sum_blocks {β : Type*} [AddCommMonoid β] (B J : Nat) (g : Fin (B * J) → β) :
    ∑ j : Fin (B * J), g j = ∑ s : Fin B, ∑ i : Fin J, g (at_ s i) := by
  rw [← Equiv.sum_comp finProdFinEquiv g, Fintype.sum_prod_type]

/-- The same over the naturals: the sum of f over the first B * J naturals is the sum over the B blocks s of the sums
    over J * s .. J * s + J - 1. -/
theorem sum_range_blocks {β : Type*} [AddCommMonoid β] (f : ℕ → β) (J : ℕ) :
    ∀ B : ℕ, ∑ s ∈ Finset.range B, ∑ i ∈ Finset.range J, f (J * s + i) = ∑ j ∈ Finset.range (B * J), f j
  | 0 => by rw [Finset.sum_range_zero, Nat.zero_mul, Finset.sum_range_zero]
  | B + 1 => by
    rw [Finset.sum_range_succ, sum_range_blocks f J B, Nat.succ_mul, Finset.sum_range_add, Nat.mul_comm J B]

end BlockSum
-- ==== Proof.KernelIdeal.Value0.lean ====
/-
  Region 0 (the 2 x 1024 product, grid 2 x 8), read as a value over the extended reals: after the run the result
  array holds x * w^T, where x is the flattened 2 x 65536 input and w the 1024 x 65536 selection matrix as the region
  finds them.

  Entry (p, 512 n + q) is written back at the last point of block row n, from the accumulator, which after the
  passes k = 0 .. 7 of that row holds the sum over k of the partial products over columns 8192 k .. 8192 k + 8191:
  the sum over all 65536 columns, taken in 8 blocks.

  Point t = 8 n + k reads columns 8192 k .. 8192 k + 8191 of x and of rows 512 n .. 512 n + 511 of w, so one pass adds
  to entry (p, q) of the accumulator the sum over i < 8192 of x(p, 8192 k + i) * w(512 n + q, 8192 k + i); the pass at
  k = 0 starts from zero.  The accumulator after point 8 n + k is therefore 0 plus the passes' addends for 0 .. k, and
  at k = 7 these are the 65536 addends of entry (p, 512 n + q) of x * w^T.  The blocks (0, n) written back at the
  points 8 n + 7 tile the 2 x 1024 array.
-/
import proofs.«181708_j32916629357225_1_alg».proof.Proof.KernelIdeal.Data0
import proofs.«181708_j32916629357225_1_alg».proof.Proof.Spec
import proofs.«181708_j32916629357225_1_alg».proof.Proof.LibDotForms
import proofs.«181708_j32916629357225_1_alg».proof.Proof.LibBlockSum

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-! ## One pass, entry by entry -/

/-- The pass's product contracts the second axis of both blocks: x * w^T. -/
theorem isABt0 : DotForms.IsABt dot_S2x8192_S512x8192_S2x512_1_1_0_0_n_n := ⟨rfl, rfl, rfl, rfl, rfl, rfl⟩

/-- The zero block is 0 everywhere. -/
theorem zero0_apply (j : S2x512.Idx) : zero0 (F := Ideal) j = 0 := by
  unfold zero0 k0_pay1
  rw [shapeCast_self, broadcast_apply]
  exact Ideal.ofBits_zero_f32

/-- One pass at entry (p, q): s(p, q) plus the sum over the block's 8192 columns of x(p, i) * w(q, i). -/
theorem step0_apply (x : Vec Ideal S2x8192 .f32) (w : Vec Ideal S512x8192 .f32) (s : Vec Ideal S2x512 .f32) (p : Fin 2) (q : Fin 512) :
    step0 x w s (ix2 p q) = s (ix2 p q) + ∑ i : Fin 8192, x (ix2 p i) * w (ix2 q i) := by
  unfold step0 k0_pay2
  rw [shapeCast_self, addf_apply, shapeCast_self]
  exact congrArg (s (ix2 p q) + ·) (DotForms.abt_matmul_zero_apply isABt0 _ x w p q)

/-! ## Where the windows are at point t = 8 n + k -/

/-- The flattened input's window is on block (0, k). -/
theorem xIdx0 : ∀ t : Fin cfg0.N, win0_0.index t (0 : Fin 2) = 0 ∧ win0_0.index t (1 : Fin 2) = t.val % 8 :=
  (by decide +kernel : ∀ t : Fin grid0.N, _)

/-- The selection matrix's window is on block (n, k), and block row n lies inside the matrix's 1024 rows. -/
theorem wIdx0 : ∀ t : Fin cfg0.N, win0_1.index t (0 : Fin 2) = t.val / 8 ∧ win0_1.index t (1 : Fin 2) = t.val % 8
    ∧ 512 * (t.val / 8) + 512 ≤ 1024 :=
  (by decide +kernel : ∀ t : Fin grid0.N, _)

/-- The result's window is on block (0, n). -/
theorem outIdx0 : ∀ t : Fin cfg0.N, win0_2.index t (0 : Fin 2) = 0 ∧ win0_2.index t (1 : Fin 2) = t.val / 8 :=
  (by decide +kernel : ∀ t : Fin grid0.N, _)

/-- Every block row b of the result is written back at some point 8 b + 7. -/
theorem cover0 : ∀ b : Fin (1024 / 512), ∃ t : Fin cfg0.N, t.val % 8 = 7 ∧ t.val / 8 = b.val :=
  (by decide +kernel : ∀ b : Fin (1024 / 512), ∃ t : Fin grid0.N, t.val % 8 = 7 ∧ t.val / 8 = b.val)

/-! ## The blocks as entries of the arrays

A block's coordinate on an axis is the window's block index there times the block's extent, plus the coordinate inside
the block. -/

/-- Entry (p, i) of the flattened input's block at point t is x(p, 8192 k + i). -/
theorem blk0_x_apply (c : Dev nD) (t : Fin cfg0.N) (p : Fin 2) (i : Fin 8192) (h : 8192 * (t.val % 8) + i.val < 65536) :
    (blk0 V c 0 t : Vec Ideal S2x8192 .f32) (ix2 p i) = (V c main_v0 : S2x65536.Idx → EReal) (ix2 p ⟨8192 * (t.val % 8) + i.val, h⟩) := by
  obtain ⟨ea, eb⟩ := xIdx0 t
  unfold blk0
  rw [View.read_apply]
  show V c main_v0 _ = V c main_v0 _
  congr 1
  funext a
  apply Fin.ext
  match a with
  | ⟨0, _⟩ => show win0_0.index t 0 * 2 + 1 * p.val = p.val; rw [ea]; omega
  | ⟨1, _⟩ => show win0_0.index t 1 * 8192 + 1 * i.val = 8192 * (t.val % 8) + i.val; rw [eb]; omega

/-- Entry (q, i) of the selection matrix's block at point t is w(512 n + q, 8192 k + i). -/
theorem blk0_w_apply (c : Dev nD) (t : Fin cfg0.N) (q : Fin 512) (i : Fin 8192) (hr : 512 * (t.val / 8) + q.val < 1024) (h : 8192 * (t.val % 8) + i.val < 65536) :
    (blk0 V c 1 t : Vec Ideal S512x8192 .f32) (ix2 q i) = (V c main_arg1 : S1024x65536.Idx → EReal) (ix2 ⟨512 * (t.val / 8) + q.val, hr⟩ ⟨8192 * (t.val % 8) + i.val, h⟩) := by
  obtain ⟨ea, eb, -⟩ := wIdx0 t
  unfold blk0
  rw [View.read_apply]
  show V c main_arg1 _ = V c main_arg1 _
  congr 1
  funext a
  apply Fin.ext
  match a with
  | ⟨0, _⟩ => show win0_1.index t 0 * 512 + 1 * q.val = 512 * (t.val / 8) + q.val; rw [ea]; omega
  | ⟨1, _⟩ => show win0_1.index t 1 * 8192 + 1 * i.val = 8192 * (t.val % 8) + i.val; rw [eb]; omega

/-- Entry j of the result's block at point t, of any 2 x 1024 array G, is G(j₀, 512 n + j₁). -/
theorem blk0_out_apply (t : Fin cfg0.N) (G : S2x1024.Idx → EReal) (j : S2x512.Idx) (hr : 512 * (t.val / 8) + (j 1).val < 1024) :
    ((cfg0.win 2).blk t).view.read (Elt Ideal) G j = G (ix2 ⟨(j 0).val, idx2_lt0 j⟩ ⟨512 * (t.val / 8) + (j 1).val, hr⟩) := by
  obtain ⟨ea, eb⟩ := outIdx0 t
  rw [View.read_apply]
  show G _ = G _
  congr 1
  funext a
  apply Fin.ext
  match a with
  | ⟨0, _⟩ => show win0_2.index t 0 * 2 + 1 * (j 0).val = (j 0).val; rw [ea]; omega
  | ⟨1, _⟩ => show win0_2.index t 1 * 512 + 1 * (j 1).val = 512 * (t.val / 8) + (j 1).val; rw [eb]; omega

/-! ## The addends -/

/-- Column j's addend of entry (p, r) of x * w^T: x(p, j) * w(r, j); zero past the arrays' extents. -/
def addend0 (X : S2x65536.Idx → EReal) (Wm : S1024x65536.Idx → EReal) (p : Fin 2) (r j : ℕ) : EReal :=
  if h : r < 1024 ∧ j < 65536 then X (ix2 p ⟨j, h.2⟩) * Wm (ix2 ⟨r, h.1⟩ ⟨j, h.2⟩) else 0

/-- Point n's addend of the accumulator's entry (p, q): the addends of entry (p, 512 (n / 8) + q) over the point's
    block of columns 8192 (n mod 8) .. 8192 (n mod 8) + 8191. -/
def part0 (X : S2x65536.Idx → EReal) (Wm : S1024x65536.Idx → EReal) (n : ℕ) (pq : Fin 2 × Fin 512) : EReal :=
  ∑ i ∈ Finset.range 8192, addend0 X Wm pq.1 (512 * (n / 8) + pq.2.val) (8192 * (n % 8) + i)

/-- The product of point t's blocks at entry (p, q) is point t's addend. -/
theorem part0_eq (c : Dev nD) (t : Fin cfg0.N) (p : Fin 2) (q : Fin 512) (x : Vec Ideal S2x8192 .f32) (w : Vec Ideal S512x8192 .f32)
    (hx : x = blk0 V c 0 t) (hw : w = blk0 V c 1 t) :
    ∑ i : Fin 8192, x (ix2 p i) * w (ix2 q i) = part0 (V c main_v0) (V c main_arg1) t.val (p, q) := by
  obtain ⟨-, -, hb⟩ := wIdx0 t
  unfold part0
  rw [← Fin.sum_univ_eq_sum_range]
  refine Finset.sum_congr rfl fun i _ => ?_
  have hr : 512 * (t.val / 8) + q.val < 1024 := by omega
  have hc : 8192 * (t.val % 8) + i.val < 65536 := by omega
  rw [hx, hw, blk0_x_apply V c t p i hc, blk0_w_apply V c t q i hr hc]
  unfold addend0
  rw [dif_pos ⟨hr, hc⟩]

/-! ## The accumulator, entry by entry -/

/-- At k = 0 the accumulator's entry is 0 plus the point's addend. -/
theorem acc0_reset_apply (c : Dev nD) (n : ℕ) (h : n < cfg0.N) (hm : n % 8 = 0) (p : Fin 2) (q : Fin 512) :
    acc0 V c n h (ix2 p q) = 0 + part0 (V c main_v0) (V c main_arg1) n (p, q) :=
  (congrFun (acc0_reset V c ⟨n, h⟩ hm) (ix2 p q)).trans <|
    (step0_apply (blk0 V c 0 ⟨n, h⟩) (blk0 V c 1 ⟨n, h⟩) zero0 p q).trans <|
      congrArg₂ (· + ·) (zero0_apply _) (part0_eq V c ⟨n, h⟩ p q _ _ rfl rfl)

/-- At k > 0 it is the entry the point before left plus the point's addend. -/
theorem acc0_next_apply (c : Dev nD) (n : ℕ) (h : n + 1 < cfg0.N) (hm : ¬ (n + 1) % 8 = 0) (p : Fin 2) (q : Fin 512) :
    acc0 V c (n + 1) h (ix2 p q) = acc0 V c n (Nat.lt_of_succ_lt h) (ix2 p q) + part0 (V c main_v0) (V c main_arg1) (n + 1) (p, q) :=
  (congrFun (acc0_next V c ⟨n + 1, h⟩ hm) (ix2 p q)).trans <|
    (step0_apply (blk0 V c 0 ⟨n + 1, h⟩) (blk0 V c 1 ⟨n + 1, h⟩) (acc0 V c n (Nat.lt_of_succ_lt h)) p q).trans <|
      congrArg (acc0 V c n (Nat.lt_of_succ_lt h) (ix2 p q) + ·) (part0_eq V c ⟨n + 1, h⟩ p q _ _ rfl rfl)

/-- After point t = 8 n + k the accumulator's entry (p, q) is 0 plus the addends of the points 8 n .. 8 n + k: the
    accumulator resets at the multiples of 8 and steps from the point before elsewhere, so it is the fold over the
    run of points from 8 n, and every step of the fold adds that point's addend. -/
theorem acc0_apply (c : Dev nD) (t : Fin cfg0.N) (p : Fin 2) (q : Fin 512) :
    acc0 V c t.val t.isLt (ix2 p q)
      = 0 + ∑ s ∈ Finset.range (t.val % 8 + 1), part0 (V c main_v0) (V c main_arg1) (8 * (t.val / 8) + s) (p, q) := by
  have hlt : 8 * (t.val / 8) + t.val % 8 < cfg0.N := by rw [Nat.div_add_mod]; exact t.isLt
  have e := Pipeline.eq_accAt_of_mod (N := cfg0.N) (α := Fin 2 × Fin 512 → EReal)
    (fun n h pq => acc0 V c n h (ix2 pq.1 pq.2)) 8
    (fun n _ pq => 0 + part0 (V c main_v0) (V c main_arg1) n pq)
    (fun n _ s pq => s pq + part0 (V c main_v0) (V c main_arg1) n pq)
    (fun n h hm => funext fun pq => acc0_reset_apply V c n h hm pq.1 pq.2)
    (fun n h hm => funext fun pq => acc0_next_apply V c n h hm pq.1 pq.2)
    (by decide) t.val t.isLt hlt
  refine (congrFun e (p, q)).trans ?_
  exact Pipeline.accAt_add_apply _ _ (fun _ => 0) (part0 (V c main_v0) (V c main_arg1)) (8 * (t.val / 8)) (t.val % 8)
    (fun _ _ => rfl) (fun _ _ _ _ _ _ => rfl) (t.val % 8) le_rfl hlt (p, q)

/-! ## A block row's eight passes are the whole contraction -/

/-- The addends of the points 8 n .. 8 n + 7 at entry (p, q) are the 65536 addends of entry (p, 512 n + q) of x * w^T,
    taken in 8 blocks of 8192 columns. -/
theorem sumAt0 (X : S2x65536.Idx → EReal) (Wm : S1024x65536.Idx → EReal) (nb : ℕ) (p : Fin 2) (q : Fin 512) (hr : 512 * nb + q.val < 1024) :
    ∑ s ∈ Finset.range 8, part0 X Wm (8 * nb + s) (p, q)
      = Downsample.prodT (M := 2) (K := 65536) (N := 1024) X Wm (ix2 p ⟨512 * nb + q.val, hr⟩) := by
  have hL : ∀ s ∈ Finset.range 8, part0 X Wm (8 * nb + s) (p, q)
      = ∑ i ∈ Finset.range 8192, addend0 X Wm p (512 * nb + q.val) (8192 * s + i) := fun s hs => by
    have hs' : s < 8 := Finset.mem_range.mp hs
    unfold part0
    rw [show (8 * nb + s) / 8 = nb by omega, show (8 * nb + s) % 8 = s by omega]
  rw [Finset.sum_congr rfl hL, BlockSum.sum_range_blocks (addend0 X Wm p (512 * nb + q.val)) 8192 8, show 8 * 8192 = 65536 from rfl,
    Downsample.prodT_apply, ← Fin.sum_univ_eq_sum_range]
  refine Finset.sum_congr rfl fun j _ => ?_
  unfold addend0
  rw [dif_pos ⟨hr, j.isLt⟩]

/-! ## What is written back, and the array -/

/-- At a point t = 8 n + 7 the accumulator's entry j is entry (j₀, 512 n + j₁) of x * w^T. -/
theorem flushed0_apply (c : Dev nD) (t : Fin cfg0.N) (hk : t.val % 8 = 7) (j : S2x512.Idx) (hr : 512 * (t.val / 8) + (j 1).val < 1024) :
    acc0 V c t.val t.isLt j
      = Downsample.prodT (M := 2) (K := 65536) (N := 1024) (V c main_v0) (V c main_arg1) (ix2 ⟨(j 0).val, idx2_lt0 j⟩ ⟨512 * (t.val / 8) + (j 1).val, hr⟩) := by
  obtain ⟨p, q, rfl⟩ : ∃ (p : Fin 2) (q : Fin 512), j = ix2 p q := ⟨j 0, j 1, eq_ix2 j⟩
  rw [acc0_apply V c t p q, hk, zero_add]
  exact sumAt0 _ _ (t.val / 8) p q hr

/-- What a point that writes back writes is its block of x * w^T. -/
theorem flushed0_eq (c : Dev nD) (t : Fin cfg0.N) (hf : (cfg0.win 2).flush t = true) :
    (dat0 (F := Ideal) V c).flushed 2 t
      = ((cfg0.win 2).blk t).view.read (Elt Ideal) (Downsample.prodT (M := 2) (K := 65536) (N := 1024) (V c main_v0) (V c main_arg1)) := by
  have hk : t.val % 8 = 7 := (flush0_2 t).mp hf
  obtain ⟨-, -, hb⟩ := wIdx0 t
  show (dat0 (F := Ideal) V c).after 2 t = _
  rw [after0_out]
  funext (j : S2x512.Idx)
  have hj : (j 1).val < 512 := idx2_lt1 j
  exact (flushed0_apply V c t hk j (by omega)).trans (blk0_out_apply t _ j (by omega)).symm

/-- Region 0's result array after the run is the product of the two arrays it reads: entry (i₀, i₁) lies in block
    (0, i₁ / 512), written back at the last point of that block row. -/
theorem total0 (c : Dev nD) :
    (dat0 (F := Ideal) V c).arrAt 2 cfg0.N = Downsample.prodT (M := 2) (K := 65536) (N := 1024) (V c main_v0) (V c main_arg1) :=
  (dat0 (F := Ideal) V c).arrAt_eq_of_cover 2 _ (flushed0_eq V c) fun (i : S2x1024.Idx) => by
    have hrow : (i 0).val < 2 := idx2_lt0 i
    have hcol : (i 1).val < 1024 := idx2_lt1 i
    obtain ⟨t, hk, hn⟩ := cover0 ⟨(i 1).val / 512, by omega⟩
    obtain ⟨ea, eb⟩ := outIdx0 t
    refine ⟨t, (flush0_2 t).mpr hk, ?_⟩
    show i ∈ ((View.whole main_v1).slice (win0_2.rect t)).set
    rw [View.set_slice_whole, Rect.mem_set_unit]
    intro a
    match a with
    | ⟨0, _⟩ => show win0_2.index t (0 : Fin 2) * 2 ≤ (i 0).val ∧ (i 0).val < win0_2.index t (0 : Fin 2) * 2 + 2
                rw [ea]; omega
    | ⟨1, _⟩ => show win0_2.index t (1 : Fin 2) * 512 ≤ (i 1).val ∧ (i 1).val < win0_2.index t (1 : Fin 2) * 512 + 512
                rw [eb, hn]; show (i 1).val / 512 * 512 ≤ (i 1).val ∧ (i 1).val < (i 1).val / 512 * 512 + 512; omega

end Cert.KernelIdeal.Hand

end
-- ==== Proof.KernelIdeal.Value1.lean ====
/-
  Region 1 (the 2 x 4096 product, grid 8 x 8), read as a value over the extended reals: after the run the result
  array holds x * w^T, where x is the flattened 2 x 65536 input and w the 4096 x 65536 selection matrix as the region
  finds them.

  Entry (p, 512 n + q) is written back at the last point of block row n, from the accumulator, which after the
  passes k = 0 .. 7 of that row holds the sum over k of the partial products over columns 8192 k .. 8192 k + 8191:
  the sum over all 65536 columns, taken in 8 blocks.

  Point t = 8 n + k reads columns 8192 k .. 8192 k + 8191 of x and of rows 512 n .. 512 n + 511 of w, so one pass adds
  to entry (p, q) of the accumulator the sum over i < 8192 of x(p, 8192 k + i) * w(512 n + q, 8192 k + i); the pass at
  k = 0 starts from zero.  The accumulator after point 8 n + k is therefore 0 plus the passes' addends for 0 .. k, and
  at k = 7 these are the 65536 addends of entry (p, 512 n + q) of x * w^T.  The blocks (0, n) written back at the
  points 8 n + 7 tile the 2 x 4096 array.
-/
import proofs.«181708_j32916629357225_1_alg».proof.Proof.KernelIdeal.Data1
import proofs.«181708_j32916629357225_1_alg».proof.Proof.Spec
import proofs.«181708_j32916629357225_1_alg».proof.Proof.LibDotForms
import proofs.«181708_j32916629357225_1_alg».proof.Proof.LibBlockSum

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-! ## One pass, entry by entry -/

/-- The pass's product contracts the second axis of both blocks: x * w^T. -/
theorem isABt1 : DotForms.IsABt dot_S2x8192_S512x8192_S2x512_1_1_0_0_n_n := ⟨rfl, rfl, rfl, rfl, rfl, rfl⟩

/-- The zero block is 0 everywhere. -/
theorem zero1_apply (j : S2x512.Idx) : zero1 (F := Ideal) j = 0 := by
  unfold zero1 k1_pay1
  rw [shapeCast_self, broadcast_apply]
  exact Ideal.ofBits_zero_f32

/-- One pass at entry (p, q): s(p, q) plus the sum over the block's 8192 columns of x(p, i) * w(q, i). -/
theorem step1_apply (x : Vec Ideal S2x8192 .f32) (w : Vec Ideal S512x8192 .f32) (s : Vec Ideal S2x512 .f32) (p : Fin 2) (q : Fin 512) :
    step1 x w s (ix2 p q) = s (ix2 p q) + ∑ i : Fin 8192, x (ix2 p i) * w (ix2 q i) := by
  unfold step1 k1_pay2
  rw [shapeCast_self, addf_apply, shapeCast_self]
  exact congrArg (s (ix2 p q) + ·) (DotForms.abt_matmul_zero_apply isABt1 _ x w p q)

/-! ## Where the windows are at point t = 8 n + k -/

/-- The flattened input's window is on block (0, k). -/
theorem xIdx1 : ∀ t : Fin cfg1.N, win1_0.index t (0 : Fin 2) = 0 ∧ win1_0.index t (1 : Fin 2) = t.val % 8 :=
  (by decide +kernel : ∀ t : Fin grid1.N, _)

/-- The selection matrix's window is on block (n, k), and block row n lies inside the matrix's 4096 rows. -/
theorem wIdx1 : ∀ t : Fin cfg1.N, win1_1.index t (0 : Fin 2) = t.val / 8 ∧ win1_1.index t (1 : Fin 2) = t.val % 8
    ∧ 512 * (t.val / 8) + 512 ≤ 4096 :=
  (by decide +kernel : ∀ t : Fin grid1.N, _)

/-- The result's window is on block (0, n). -/
theorem outIdx1 : ∀ t : Fin cfg1.N, win1_2.index t (0 : Fin 2) = 0 ∧ win1_2.index t (1 : Fin 2) = t.val / 8 :=
  (by decide +kernel : ∀ t : Fin grid1.N, _)

/-- Every block row b of the result is written back at some point 8 b + 7. -/
theorem cover1 : ∀ b : Fin (4096 / 512), ∃ t : Fin cfg1.N, t.val % 8 = 7 ∧ t.val / 8 = b.val :=
  (by decide +kernel : ∀ b : Fin (4096 / 512), ∃ t : Fin grid1.N, t.val % 8 = 7 ∧ t.val / 8 = b.val)

/-! ## The blocks as entries of the arrays

A block's coordinate on an axis is the window's block index there times the block's extent, plus the coordinate inside
the block. -/

/-- Entry (p, i) of the flattened input's block at point t is x(p, 8192 k + i). -/
theorem blk1_x_apply (c : Dev nD) (t : Fin cfg1.N) (p : Fin 2) (i : Fin 8192) (h : 8192 * (t.val % 8) + i.val < 65536) :
    (blk1 V c 0 t : Vec Ideal S2x8192 .f32) (ix2 p i) = (V c main_v0 : S2x65536.Idx → EReal) (ix2 p ⟨8192 * (t.val % 8) + i.val, h⟩) := by
  obtain ⟨ea, eb⟩ := xIdx1 t
  unfold blk1
  rw [View.read_apply]
  show V c main_v0 _ = V c main_v0 _
  congr 1
  funext a
  apply Fin.ext
  match a with
  | ⟨0, _⟩ => show win1_0.index t 0 * 2 + 1 * p.val = p.val; rw [ea]; omega
  | ⟨1, _⟩ => show win1_0.index t 1 * 8192 + 1 * i.val = 8192 * (t.val % 8) + i.val; rw [eb]; omega

/-- Entry (q, i) of the selection matrix's block at point t is w(512 n + q, 8192 k + i). -/
theorem blk1_w_apply (c : Dev nD) (t : Fin cfg1.N) (q : Fin 512) (i : Fin 8192) (hr : 512 * (t.val / 8) + q.val < 4096) (h : 8192 * (t.val % 8) + i.val < 65536) :
    (blk1 V c 1 t : Vec Ideal S512x8192 .f32) (ix2 q i) = (V c main_arg2 : S4096x65536.Idx → EReal) (ix2 ⟨512 * (t.val / 8) + q.val, hr⟩ ⟨8192 * (t.val % 8) + i.val, h⟩) := by
  obtain ⟨ea, eb, -⟩ := wIdx1 t
  unfold blk1
  rw [View.read_apply]
  show V c main_arg2 _ = V c main_arg2 _
  congr 1
  funext a
  apply Fin.ext
  match a with
  | ⟨0, _⟩ => show win1_1.index t 0 * 512 + 1 * q.val = 512 * (t.val / 8) + q.val; rw [ea]; omega
  | ⟨1, _⟩ => show win1_1.index t 1 * 8192 + 1 * i.val = 8192 * (t.val % 8) + i.val; rw [eb]; omega

/-- Entry j of the result's block at point t, of any 2 x 4096 array G, is G(j₀, 512 n + j₁). -/
theorem blk1_out_apply (t : Fin cfg1.N) (G : S2x4096.Idx → EReal) (j : S2x512.Idx) (hr : 512 * (t.val / 8) + (j 1).val < 4096) :
    ((cfg1.win 2).blk t).view.read (Elt Ideal) G j = G (ix2 ⟨(j 0).val, idx2_lt0 j⟩ ⟨512 * (t.val / 8) + (j 1).val, hr⟩) := by
  obtain ⟨ea, eb⟩ := outIdx1 t
  rw [View.read_apply]
  show G _ = G _
  congr 1
  funext a
  apply Fin.ext
  match a with
  | ⟨0, _⟩ => show win1_2.index t 0 * 2 + 1 * (j 0).val = (j 0).val; rw [ea]; omega
  | ⟨1, _⟩ => show win1_2.index t 1 * 512 + 1 * (j 1).val = 512 * (t.val / 8) + (j 1).val; rw [eb]; omega

/-! ## The addends -/

/-- Column j's addend of entry (p, r) of x * w^T: x(p, j) * w(r, j); zero past the arrays' extents. -/
def addend1 (X : S2x65536.Idx → EReal) (Wm : S4096x65536.Idx → EReal) (p : Fin 2) (r j : ℕ) : EReal :=
  if h : r < 4096 ∧ j < 65536 then X (ix2 p ⟨j, h.2⟩) * Wm (ix2 ⟨r, h.1⟩ ⟨j, h.2⟩) else 0

/-- Point n's addend of the accumulator's entry (p, q): the addends of entry (p, 512 (n / 8) + q) over the point's
    block of columns 8192 (n mod 8) .. 8192 (n mod 8) + 8191. -/
def part1 (X : S2x65536.Idx → EReal) (Wm : S4096x65536.Idx → EReal) (n : ℕ) (pq : Fin 2 × Fin 512) : EReal :=
  ∑ i ∈ Finset.range 8192, addend1 X Wm pq.1 (512 * (n / 8) + pq.2.val) (8192 * (n % 8) + i)

/-- The product of point t's blocks at entry (p, q) is point t's addend. -/
theorem part1_eq (c : Dev nD) (t : Fin cfg1.N) (p : Fin 2) (q : Fin 512) (x : Vec Ideal S2x8192 .f32) (w : Vec Ideal S512x8192 .f32)
    (hx : x = blk1 V c 0 t) (hw : w = blk1 V c 1 t) :
    ∑ i : Fin 8192, x (ix2 p i) * w (ix2 q i) = part1 (V c main_v0) (V c main_arg2) t.val (p, q) := by
  obtain ⟨-, -, hb⟩ := wIdx1 t
  unfold part1
  rw [← Fin.sum_univ_eq_sum_range]
  refine Finset.sum_congr rfl fun i _ => ?_
  have hr : 512 * (t.val / 8) + q.val < 4096 := by omega
  have hc : 8192 * (t.val % 8) + i.val < 65536 := by omega
  rw [hx, hw, blk1_x_apply V c t p i hc, blk1_w_apply V c t q i hr hc]
  unfold addend1
  rw [dif_pos ⟨hr, hc⟩]

/-! ## The accumulator, entry by entry -/

/-- At k = 0 the accumulator's entry is 0 plus the point's addend. -/
theorem acc1_reset_apply (c : Dev nD) (n : ℕ) (h : n < cfg1.N) (hm : n % 8 = 0) (p : Fin 2) (q : Fin 512) :
    acc1 V c n h (ix2 p q) = 0 + part1 (V c main_v0) (V c main_arg2) n (p, q) :=
  (congrFun (acc1_reset V c ⟨n, h⟩ hm) (ix2 p q)).trans <|
    (step1_apply (blk1 V c 0 ⟨n, h⟩) (blk1 V c 1 ⟨n, h⟩) zero1 p q).trans <|
      congrArg₂ (· + ·) (zero1_apply _) (part1_eq V c ⟨n, h⟩ p q _ _ rfl rfl)

/-- At k > 0 it is the entry the point before left plus the point's addend. -/
theorem acc1_next_apply (c : Dev nD) (n : ℕ) (h : n + 1 < cfg1.N) (hm : ¬ (n + 1) % 8 = 0) (p : Fin 2) (q : Fin 512) :
    acc1 V c (n + 1) h (ix2 p q) = acc1 V c n (Nat.lt_of_succ_lt h) (ix2 p q) + part1 (V c main_v0) (V c main_arg2) (n + 1) (p, q) :=
  (congrFun (acc1_next V c ⟨n + 1, h⟩ hm) (ix2 p q)).trans <|
    (step1_apply (blk1 V c 0 ⟨n + 1, h⟩) (blk1 V c 1 ⟨n + 1, h⟩) (acc1 V c n (Nat.lt_of_succ_lt h)) p q).trans <|
      congrArg (acc1 V c n (Nat.lt_of_succ_lt h) (ix2 p q) + ·) (part1_eq V c ⟨n + 1, h⟩ p q _ _ rfl rfl)

/-- After point t = 8 n + k the accumulator's entry (p, q) is 0 plus the addends of the points 8 n .. 8 n + k: the
    accumulator resets at the multiples of 8 and steps from the point before elsewhere, so it is the fold over the
    run of points from 8 n, and every step of the fold adds that point's addend. -/
theorem acc1_apply (c : Dev nD) (t : Fin cfg1.N) (p : Fin 2) (q : Fin 512) :
    acc1 V c t.val t.isLt (ix2 p q)
      = 0 + ∑ s ∈ Finset.range (t.val % 8 + 1), part1 (V c main_v0) (V c main_arg2) (8 * (t.val / 8) + s) (p, q) := by
  have hlt : 8 * (t.val / 8) + t.val % 8 < cfg1.N := by rw [Nat.div_add_mod]; exact t.isLt
  have e := Pipeline.eq_accAt_of_mod (N := cfg1.N) (α := Fin 2 × Fin 512 → EReal)
    (fun n h pq => acc1 V c n h (ix2 pq.1 pq.2)) 8
    (fun n _ pq => 0 + part1 (V c main_v0) (V c main_arg2) n pq)
    (fun n _ s pq => s pq + part1 (V c main_v0) (V c main_arg2) n pq)
    (fun n h hm => funext fun pq => acc1_reset_apply V c n h hm pq.1 pq.2)
    (fun n h hm => funext fun pq => acc1_next_apply V c n h hm pq.1 pq.2)
    (by decide) t.val t.isLt hlt
  refine (congrFun e (p, q)).trans ?_
  exact Pipeline.accAt_add_apply _ _ (fun _ => 0) (part1 (V c main_v0) (V c main_arg2)) (8 * (t.val / 8)) (t.val % 8)
    (fun _ _ => rfl) (fun _ _ _ _ _ _ => rfl) (t.val % 8) le_rfl hlt (p, q)

/-! ## A block row's eight passes are the whole contraction -/

/-- The addends of the points 8 n .. 8 n + 7 at entry (p, q) are the 65536 addends of entry (p, 512 n + q) of x * w^T,
    taken in 8 blocks of 8192 columns. -/
theorem sumAt1 (X : S2x65536.Idx → EReal) (Wm : S4096x65536.Idx → EReal) (nb : ℕ) (p : Fin 2) (q : Fin 512) (hr : 512 * nb + q.val < 4096) :
    ∑ s ∈ Finset.range 8, part1 X Wm (8 * nb + s) (p, q)
      = Downsample.prodT (M := 2) (K := 65536) (N := 4096) X Wm (ix2 p ⟨512 * nb + q.val, hr⟩) := by
  have hL : ∀ s ∈ Finset.range 8, part1 X Wm (8 * nb + s) (p, q)
      = ∑ i ∈ Finset.range 8192, addend1 X Wm p (512 * nb + q.val) (8192 * s + i) := fun s hs => by
    have hs' : s < 8 := Finset.mem_range.mp hs
    unfold part1
    rw [show (8 * nb + s) / 8 = nb by omega, show (8 * nb + s) % 8 = s by omega]
  rw [Finset.sum_congr rfl hL, BlockSum.sum_range_blocks (addend1 X Wm p (512 * nb + q.val)) 8192 8, show 8 * 8192 = 65536 from rfl,
    Downsample.prodT_apply, ← Fin.sum_univ_eq_sum_range]
  refine Finset.sum_congr rfl fun j _ => ?_
  unfold addend1
  rw [dif_pos ⟨hr, j.isLt⟩]

/-! ## What is written back, and the array -/

/-- At a point t = 8 n + 7 the accumulator's entry j is entry (j₀, 512 n + j₁) of x * w^T. -/
theorem flushed1_apply (c : Dev nD) (t : Fin cfg1.N) (hk : t.val % 8 = 7) (j : S2x512.Idx) (hr : 512 * (t.val / 8) + (j 1).val < 4096) :
    acc1 V c t.val t.isLt j
      = Downsample.prodT (M := 2) (K := 65536) (N := 4096) (V c main_v0) (V c main_arg2) (ix2 ⟨(j 0).val, idx2_lt0 j⟩ ⟨512 * (t.val / 8) + (j 1).val, hr⟩) := by
  obtain ⟨p, q, rfl⟩ : ∃ (p : Fin 2) (q : Fin 512), j = ix2 p q := ⟨j 0, j 1, eq_ix2 j⟩
  rw [acc1_apply V c t p q, hk, zero_add]
  exact sumAt1 _ _ (t.val / 8) p q hr

/-- What a point that writes back writes is its block of x * w^T. -/
theorem flushed1_eq (c : Dev nD) (t : Fin cfg1.N) (hf : (cfg1.win 2).flush t = true) :
    (dat1 (F := Ideal) V c).flushed 2 t
      = ((cfg1.win 2).blk t).view.read (Elt Ideal) (Downsample.prodT (M := 2) (K := 65536) (N := 4096) (V c main_v0) (V c main_arg2)) := by
  have hk : t.val % 8 = 7 := (flush1_2 t).mp hf
  obtain ⟨-, -, hb⟩ := wIdx1 t
  show (dat1 (F := Ideal) V c).after 2 t = _
  rw [after1_out]
  funext (j : S2x512.Idx)
  have hj : (j 1).val < 512 := idx2_lt1 j
  exact (flushed1_apply V c t hk j (by omega)).trans (blk1_out_apply t _ j (by omega)).symm

/-- Region 1's result array after the run is the product of the two arrays it reads: entry (i₀, i₁) lies in block
    (0, i₁ / 512), written back at the last point of that block row. -/
theorem total1 (c : Dev nD) :
    (dat1 (F := Ideal) V c).arrAt 2 cfg1.N = Downsample.prodT (M := 2) (K := 65536) (N := 4096) (V c main_v0) (V c main_arg2) :=
  (dat1 (F := Ideal) V c).arrAt_eq_of_cover 2 _ (flushed1_eq V c) fun (i : S2x4096.Idx) => by
    have hrow : (i 0).val < 2 := idx2_lt0 i
    have hcol : (i 1).val < 4096 := idx2_lt1 i
    obtain ⟨t, hk, hn⟩ := cover1 ⟨(i 1).val / 512, by omega⟩
    obtain ⟨ea, eb⟩ := outIdx1 t
    refine ⟨t, (flush1_2 t).mpr hk, ?_⟩
    show i ∈ ((View.whole main_v3).slice (win1_2.rect t)).set
    rw [View.set_slice_whole, Rect.mem_set_unit]
    intro a
    match a with
    | ⟨0, _⟩ => show win1_2.index t (0 : Fin 2) * 2 ≤ (i 0).val ∧ (i 0).val < win1_2.index t (0 : Fin 2) * 2 + 2
                rw [ea]; omega
    | ⟨1, _⟩ => show win1_2.index t (1 : Fin 2) * 512 ≤ (i 1).val ∧ (i 1).val < win1_2.index t (1 : Fin 2) * 512 + 512
                rw [eb, hn]; show (i 1).val / 512 * 512 ≤ (i 1).val ∧ (i 1).val < (i 1).val / 512 * 512 + 512; omega

end Cert.KernelIdeal.Hand

end
-- ==== Proof.KernelIdeal.Results.lean ====
/-
  The idealized kernel program's two results as functions of its arguments, over the extended reals.

  The first result is the reshape to 2 x 32 x 32 of region 0's array, which holds x * lo^T for x the flattened
  2 x 65536 input and lo the 1024 x 65536 selection matrix; the second is the reshape to 2 x 64 x 64 of region 1's
  array, x * hi^T for the 4096 x 65536 matrix.  No item between a region and the end writes a region's array or an
  argument, so the last contents of the buffers read back through the reshapes to the launch memory.
-/
import proofs.«181708_j32916629357225_1_alg».proof.Proof.KernelIdeal.Regions
import proofs.«181708_j32916629357225_1_alg».proof.Proof.KernelIdeal.Value0
import proofs.«181708_j32916629357225_1_alg».proof.Proof.KernelIdeal.Value1
import Idealize.ShloMosaic.Lib.StableHlo.Run

set_option maxRecDepth 16384

noncomputable section

namespace Cert.KernelIdeal.Hand

open Idealize.ShloMosaic Idealize.ShloMosaic.TcCoe
open Idealize.SL Idealize.SL.Sem
open Cert.KernelIdeal.Gen

variable (m : (ℓ : Loc nD τ sig) → Buf (Elt Ideal) ℓ) (ρ : Dev nD → PrngReg)

/-- The flattened input, as both regions read it. -/
def flat (c : Dev nD) : FVec Ideal S2x65536 .f32 :=
  shapeCast S2x65536 (m ((c : Thread nD τ).loc main_arg0)) shapeCasts_S2x256x256_S2x65536

/-- The first result. -/
def lo (c : Dev nD) : Buf (Elt Ideal) ((c : Thread nD τ).loc main_v2) :=
  shapeCast S2x32x32 (Downsample.prodT (M := 2) (K := 65536) (N := 1024) (flat m c) (m ((c : Thread nD τ).loc main_arg1))) shapeCasts_S2x1024_S2x32x32

/-- The second result. -/
def hi (c : Dev nD) : Buf (Elt Ideal) ((c : Thread nD τ).loc main_v4) :=
  shapeCast S2x64x64 (Downsample.prodT (M := 2) (K := 65536) (N := 4096) (flat m c) (m ((c : Thread nD τ).loc main_arg2))) shapeCasts_S2x4096_S2x64x64

/-- After the first reshape the flattened input's buffer holds the flattened input. -/
theorem V1_flat (c : Dev nD) : Gen.V1 m c main_v0 = flat m c := by
  show StableHlo.after hostOps0 (fun b => m (c, b)) (Proc.devRef .tc main_v0) = _
  after_results; rfl

/-- Region 0 finds the flattened input and the first selection matrix as launched. -/
theorem entry0_x (c : Dev nD) : entry0 m c main_v0 = flat m c := V1_flat m c
theorem entry0_w (c : Dev nD) : entry0 m c main_arg1 = m ((c : Thread nD τ).loc main_arg1) :=
  Gen.V1_of m c main_arg1 (by decide)

/-- Region 1 finds the flattened input and the second selection matrix as launched: nothing in between writes them. -/
theorem entry1_x (c : Dev nD) : entry1 m c main_v0 = flat m c :=
  (Gen.V3_of m (outs0 m) c main_v0 (by decide)).trans ((Gen.V2_of m (outs0 m) c main_v0 (by decide)).trans (V1_flat m c))
theorem entry1_w (c : Dev nD) : entry1 m c main_arg2 = m ((c : Thread nD τ).loc main_arg2) :=
  (Gen.V3_of m (outs0 m) c main_arg2 (by decide)).trans ((Gen.V2_of m (outs0 m) c main_arg2 (by decide)).trans (Gen.V1_of m c main_arg2 (by decide)))

/-- Region 0's array after the region. -/
theorem V2_out (c : Dev nD) :
    Gen.V2 m (outs m) c main_v1 = Downsample.prodT (M := 2) (K := 65536) (N := 1024) (flat m c) (m ((c : Thread nD τ).loc main_arg1)) := by
  have h := (hF0 m c 2).symm.trans (total0 (entry0 m) c)
  rw [entry0_x, entry0_w] at h
  exact h

/-- Region 1's array after the region. -/
theorem V4_out (c : Dev nD) :
    Gen.V4 m (outs m) c main_v3 = Downsample.prodT (M := 2) (K := 65536) (N := 4096) (flat m c) (m ((c : Thread nD τ).loc main_arg2)) := by
  have h := (hF1 m c 2).symm.trans (total1 (entry1 m) c)
  rw [entry1_x, entry1_w] at h
  exact h

/-- The first result's buffer at the end: written by the second reshape, then left alone. -/
theorem V5_lo (c : Dev nD) : Gen.V5 m (outs m) c main_v2 = lo m c := by
  rw [Gen.V5_of m (outs m) c main_v2 (by decide), Gen.V4_of m (outs m) c main_v2 (by decide)]
  have e : Gen.V3 m (outs m) c main_v2 = shapeCast S2x32x32 (Gen.V2 m (outs m) c main_v1) shapeCasts_S2x1024_S2x32x32 := by
    show StableHlo.after hostOps1 (Gen.V2 m (outs m) c) (Proc.devRef .tc main_v2) = _
    after_results; rfl
  rw [e, V2_out]; rfl

/-- The second result's buffer at the end: written by the last reshape. -/
theorem V5_hi (c : Dev nD) : Gen.V5 m (outs m) c main_v4 = hi m c := by
  have e : Gen.V5 m (outs m) c main_v4 = shapeCast S2x64x64 (Gen.V4 m (outs m) c main_v3) shapeCasts_S2x4096_S2x64x64 := by
    show StableHlo.after hostOps2 (Gen.V4 m (outs m) c) (Proc.devRef .tc main_v4) = _
    after_results; rfl
  rw [e, V4_out]; rfl

/-- The idealized kernel program runs to both results at the products and the arguments as launched. -/
theorem run_vals : θ_run defs (onTc (τ := τ) (main (F := Ideal))) ⟨m, fun _ => 0, ρ⟩ (fun r => ∀ c : Dev nD,
      r.2.mem ((c.tc : Thread nD τ).loc main_v2) = lo m c
      ∧ r.2.mem ((c.tc : Thread nD τ).loc main_v4) = hi m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (V5_lo m c),
     (h c _ (mem_uc main_v4 (by decide))).trans (V5_hi m c),
     (h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c)⟩) (run_all m ρ)

end Cert.KernelIdeal.Hand

end
-- ==== Proof.RefSide.lean ====
/-
  The reference side, over the extended reals: the host's dot_general of x with the transposed selection matrix is
  the product x * w^T of the specification, entry by entry (the transpose swaps the selection matrix's two
  coordinates, and the contraction runs over the shared axis of 65536 columns).
-/
import proofs.«181708_j32916629357225_1_alg».proof.Proof.Gen.ReferenceIdeal.Run
import proofs.«181708_j32916629357225_1_alg».proof.Proof.Gen.ReferenceIdeal.Read
import proofs.«181708_j32916629357225_1_alg».proof.Proof.Spec

noncomputable section

open scoped BigOperators

namespace Cert.ReferenceIdeal.Hand

open Idealize.ShloMosaic Idealize.ShloMosaic.ValueIdx
open Cert.ReferenceIdeal Cert.ReferenceIdeal.Gen

/-! ## The 2 x 1024 result -/

/-- The transposed selection matrix at (i, q) is the selection matrix at (q, i). -/
theorem transpose_lo_apply (w : FVec Ideal S1024x65536 .f32) (i : Fin 65536) (q : Fin 1024) :
    transpose S65536x1024 [1, 0] w transposes_S1024x65536_S65536x1024_1_0 (ix2 i q) = w (ix2 q i) :=
  transpose_apply [1, 0] w transposes_S1024x65536_S65536x1024_1_0 (ix2 i q) (ix2 q i) (fun b => match b with
    | ⟨0, _⟩ => rfl
    | ⟨1, _⟩ => rfl)

/-- The host's dot_general at entry (p, q): the sum over the shared axis of l(p, i) * r(i, q). -/
theorem dot_lo_apply (l : FVec Ideal S2x65536 .f32) (r : FVec Ideal S65536x1024 .f32) (p : Fin 2) (q : Fin 1024) :
    Host.dotGeneral (F := Ideal) dot_S2x65536_S65536x1024_S2x1024_1_0_0_1_n_n none l r (ix2 p q)
      = ∑ i : Fin 65536, l (ix2 p i) * r (ix2 i q) := by
  simp only [Host.dotGeneral]
  rw [Ideal.dotGeneral_apply, ← Equiv.sum_comp (contrEquiv1 dot_S2x65536_S65536x1024_S2x1024_1_0_0_1_n_n 65536 rfl rfl).symm]
  refine Finset.sum_congr rfl fun k _ => ?_
  have hk := contrEquiv1_symm_val dot_S2x65536_S65536x1024_S2x1024_1_0_0_1_n_n 65536 rfl rfl k
  -- the left operand is read at row p, column k
  have el : dot_S2x65536_S65536x1024_S2x1024_1_0_0_1_n_n.lhsIdx (ix2 p q) ((contrEquiv1 dot_S2x65536_S65536x1024_S2x1024_1_0_0_1_n_n 65536 rfl rfl).symm k) = ix2 p k := funext fun a => Fin.ext (by
    match a with
    | ⟨0, _⟩ => exact Read.lhs_main_v2_0 _ _
    | ⟨1, _⟩ => exact (Read.lhs_main_v2_1 _ _).trans hk)
  -- the right operand is read at row k, column q
  have er : dot_S2x65536_S65536x1024_S2x1024_1_0_0_1_n_n.rhsIdx (ix2 p q) ((contrEquiv1 dot_S2x65536_S65536x1024_S2x1024_1_0_0_1_n_n 65536 rfl rfl).symm k) = ix2 k q := funext fun a => Fin.ext (by
    match a with
    | ⟨0, _⟩ => exact (Read.rhs_main_v2_0 _ _).trans hk
    | ⟨1, _⟩ => exact Read.rhs_main_v2_1 _ _)
  rw [el, er]

/-- The first result before its last reshape: the 2 x 1024 product. -/
theorem ref_lo (x : FVec Ideal S2x65536 .f32) (w : FVec Ideal S1024x65536 .f32) :
    Host.dotGeneral (F := Ideal) dot_S2x65536_S65536x1024_S2x1024_1_0_0_1_n_n none x
      (transpose S65536x1024 [1, 0] w transposes_S1024x65536_S65536x1024_1_0)
    = Downsample.prodT (M := 2) (K := 65536) (N := 1024) x w := by
  funext j
  obtain ⟨p, q, rfl⟩ : ∃ (p : Fin 2) (q : Fin 1024), j = ix2 p q := ⟨j 0, j 1, eq_ix2 j⟩
  rw [dot_lo_apply, Downsample.prodT_apply]
  exact Finset.sum_congr rfl fun i _ => by rw [transpose_lo_apply]

/-! ## The 2 x 4096 result -/

/-- The transposed selection matrix at (i, q) is the selection matrix at (q, i). -/
theorem transpose_hi_apply (w : FVec Ideal S4096x65536 .f32) (i : Fin 65536) (q : Fin 4096) :
    transpose S65536x4096 [1, 0] w transposes_S4096x65536_S65536x4096_1_0 (ix2 i q) = w (ix2 q i) :=
  transpose_apply [1, 0] w transposes_S4096x65536_S65536x4096_1_0 (ix2 i q) (ix2 q i) (fun b => match b with
    | ⟨0, _⟩ => rfl
    | ⟨1, _⟩ => rfl)

/-- The host's dot_general at entry (p, q): the sum over the shared axis of l(p, i) * r(i, q). -/
theorem dot_hi_apply (l : FVec Ideal S2x65536 .f32) (r : FVec Ideal S65536x4096 .f32) (p : Fin 2) (q : Fin 4096) :
    Host.dotGeneral (F := Ideal) dot_S2x65536_S65536x4096_S2x4096_1_0_0_1_n_n none l r (ix2 p q)
      = ∑ i : Fin 65536, l (ix2 p i) * r (ix2 i q) := by
  simp only [Host.dotGeneral]
  rw [Ideal.dotGeneral_apply, ← Equiv.sum_comp (contrEquiv1 dot_S2x65536_S65536x4096_S2x4096_1_0_0_1_n_n 65536 rfl rfl).symm]
  refine Finset.sum_congr rfl fun k _ => ?_
  have hk := contrEquiv1_symm_val dot_S2x65536_S65536x4096_S2x4096_1_0_0_1_n_n 65536 rfl rfl k
  -- the left operand is read at row p, column k
  have el : dot_S2x65536_S65536x4096_S2x4096_1_0_0_1_n_n.lhsIdx (ix2 p q) ((contrEquiv1 dot_S2x65536_S65536x4096_S2x4096_1_0_0_1_n_n 65536 rfl rfl).symm k) = ix2 p k := funext fun a => Fin.ext (by
    match a with
    | ⟨0, _⟩ => exact Read.lhs_main_v5_0 _ _
    | ⟨1, _⟩ => exact (Read.lhs_main_v5_1 _ _).trans hk)
  -- the right operand is read at row k, column q
  have er : dot_S2x65536_S65536x4096_S2x4096_1_0_0_1_n_n.rhsIdx (ix2 p q) ((contrEquiv1 dot_S2x65536_S65536x4096_S2x4096_1_0_0_1_n_n 65536 rfl rfl).symm k) = ix2 k q := funext fun a => Fin.ext (by
    match a with
    | ⟨0, _⟩ => exact (Read.rhs_main_v5_0 _ _).trans hk
    | ⟨1, _⟩ => exact Read.rhs_main_v5_1 _ _)
  rw [el, er]

/-- The second result before its last reshape: the 2 x 4096 product. -/
theorem ref_hi (x : FVec Ideal S2x65536 .f32) (w : FVec Ideal S4096x65536 .f32) :
    Host.dotGeneral (F := Ideal) dot_S2x65536_S65536x4096_S2x4096_1_0_0_1_n_n none x
      (transpose S65536x4096 [1, 0] w transposes_S4096x65536_S65536x4096_1_0)
    = Downsample.prodT (M := 2) (K := 65536) (N := 4096) x w := by
  funext j
  obtain ⟨p, q, rfl⟩ : ∃ (p : Fin 2) (q : Fin 4096), j = ix2 p q := ⟨j 0, j 1, eq_ix2 j⟩
  rw [dot_hi_apply, Downsample.prodT_apply]
  exact Finset.sum_congr rfl fun i _ => by rw [transpose_hi_apply]

end Cert.ReferenceIdeal.Hand

end
-- ==== Proof.lean ====
/-
  The certificate of the two-scale downsampling kernel against its reference.

  Both programs compute, from an input x of shape 2 x 256 x 256 and two selection matrices lo (1024 x 65536) and
  hi (4096 x 65536), the pair (reshape (xf * lo^T), reshape (xf * hi^T)) with xf the input flattened to 2 x 65536.
  The reference transposes each matrix and takes one product over all 65536 columns.  The kernel runs two pipelined
  regions; each walks the columns in 8 blocks of 8192, adding each block's partial product into an accumulator that
  starts from zero, and writes the accumulator back after the last block.  Over the extended reals the sum of the 8
  partial sums is the whole sum (only the grouping of + changes), so the results agree entry by entry; no
  finiteness of the inputs is used.

  Frames: each kernel program (at both instances) runs its five items in order, every region handing back what it
  borrowed, and no item writes an argument; the reference is a straight line of host operations.
  The idealization rewrote nothing, so the kernel and its idealization are the same text.
-/
import proofs.«181708_j32916629357225_1_alg».proof.Defs
import proofs.«181708_j32916629357225_1_alg».proof.Proof.Gen.Kernel
import proofs.«181708_j32916629357225_1_alg».proof.Proof.Gen.KernelIdeal
import proofs.«181708_j32916629357225_1_alg».proof.Proof.Gen.ReferenceIdeal
import proofs.«181708_j32916629357225_1_alg».proof.Proof.Gen.Pre_finite_inputs
import proofs.«181708_j32916629357225_1_alg».proof.Proof.Gen.ReferenceIdeal.Run
import proofs.«181708_j32916629357225_1_alg».proof.Proof.Kernel.Regions
import proofs.«181708_j32916629357225_1_alg».proof.Proof.KernelIdeal.Results
import proofs.«181708_j32916629357225_1_alg».proof.Proof.RefSide
import Idealize.ShloMosaic.Adequacy
import Idealize.ShloMosaic.Init

noncomputable section

namespace Cert.Proof

open Idealize.ShloMosaic Idealize.SL.Sem

/-- The word-level kernel program terminates and leaves its arguments alone. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- The reference is host operations only: its run, with the results dropped. -/
theorem frame_r : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- From memories that agree on the arguments both programs end with both results at the same products. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨Cert.KernelIdeal.Hand.lo m, Cert.KernelIdeal.Hand.hi m, Cert.KernelIdeal.Hand.run_vals m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Hand.ref_lo, (hagree c).1, (hagree c).2.1]; rfl
  · rw [Cert.ReferenceIdeal.Hand.ref_hi, (hagree c).1, (hagree c).2.2]; rfl

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
